-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg4 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S8192x4096 .f32) (main_arg1 : IVec S512x4096 32) (main_arg2 : IVec S32x512 32) (main_arg3 : FVec F S32x4096 .f32) (main_arg4 : IVec S4096 32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg3
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg4 main_v14
  let main_c_5 : IVec S_ 32 := constantI S_ 32 32#32
  fn_part1 (F := F) main_arg4 main_v13 main_v15 main_c_5
-- ==== Kernel.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S32x512x1 : Shape := ⟨3, ![32, 512, 1]⟩
abbrev S1x1x8 : Shape := ⟨3, ![1, 1, 8]⟩
abbrev S32x512x8 : Shape := ⟨3, ![32, 512, 8]⟩
abbrev S1x4096 : Shape := ⟨2, ![1, 4096]⟩
abbrev S4096x4096 : Shape := ⟨2, ![4096, 4096]⟩
abbrev S16x4096 : Shape := ⟨2, ![16, 4096]⟩
abbrev S128 : Shape := ⟨1, ![128]⟩
abbrev S128x4096 : Shape := ⟨2, ![128, 4096]⟩
abbrev S1x8x1 : Shape := ⟨3, ![1, 8, 1]⟩
abbrev S16x1x4096 : Shape := ⟨3, ![16, 1, 4096]⟩
abbrev S16x8x4096 : Shape := ⟨3, ![16, 8, 4096]⟩
abbrev S128x32 : Shape := ⟨2, ![128, 32]⟩
abbrev S128x1 : Shape := ⟨2, ![128, 1]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 29
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .i32⟩
  | .hbm, ⟨5, _⟩ => ⟨S4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S32x512x1, .i32⟩
  | .hbm, ⟨14, _⟩ => ⟨S1x1x8, .i32⟩
  | .hbm, ⟨15, _⟩ => ⟨S32x512x8, .i32⟩
  | .hbm, ⟨16, _⟩ => ⟨S32x512x8, .i32⟩
  | .hbm, ⟨17, _⟩ => ⟨S32x512x8, .i32⟩
  | .hbm, ⟨18, _⟩ => ⟨S_, .i32⟩
  | .hbm, ⟨19, _⟩ => ⟨S32x512x8, .i32⟩
  | .hbm, ⟨20, _⟩ => ⟨S32x512x8, .i32⟩
  | .hbm, ⟨21, _⟩ => ⟨S_, .i32⟩
  | .hbm, ⟨22, _⟩ => ⟨S32x512x8, .i32⟩
  | .hbm, ⟨23, _⟩ => ⟨S32x512x8, .i32⟩
  | .hbm, ⟨24, _⟩ => ⟨S32x4096, .i32⟩
  | .hbm, ⟨25, _⟩ => ⟨S32x4096, .f32⟩
  | .hbm, ⟨26, _⟩ => ⟨S1x4096, .f32⟩
  | .hbm, ⟨27, _⟩ => ⟨S4096x4096, .bf16⟩
  | .hbm, ⟨28, _⟩ => ⟨S8192x4096, .f32⟩
  | .local _ .vmem, ⟨0, _⟩ => ⟨S16x4096, .i32⟩
  | .local _ .vmem, ⟨1, _⟩ => ⟨S16x4096, .i32⟩
  | .local _ .vmem, ⟨2, _⟩ => ⟨S32x4096, .f32⟩
  | .local _ .vmem, ⟨3, _⟩ => ⟨S32x4096, .f32⟩
  | .local _ .vmem, ⟨4, _⟩ => ⟨S128, .i32⟩
  | .local _ .vmem, ⟨5, _⟩ => ⟨S128, .i32⟩
  | .local _ .vmem, ⟨6, _⟩ => ⟨S128x4096, .bf16⟩
  | .local _ .vmem, ⟨7, _⟩ => ⟨S128x4096, .bf16⟩
  | .local _ .vmem, ⟨8, _⟩ => ⟨S1024x512, .f32⟩
  | .local _ .vmem, ⟨9, _⟩ => ⟨S1024x512, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S8 : S_.BroadcastsInDim S8 (![] : Fin 0 → Fin S8.rank)
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  shapeCasts_S4096_S1x4096 : S4096.ShapeCasts S1x4096
  iota_S1x8x1_d1_w32 : S1x8x1.Iotas .tc 32 [1]
  inb_S16x4096_S16x4096_0_0 : ∀ a, (![0, 0] : Fin 2 → Nat) a + S16x4096.size a ≤ S16x4096.size a
  h_S16x4096 : 0 < S16x4096.numel
  shapeCasts_S16x4096_S16x1x4096 : S16x4096.ShapeCasts S16x1x4096
  broadcasts_S16x1x4096_S16x8x4096 : S16x1x4096.Broadcasts S16x8x4096
  broadcasts_S1x8x1_S16x8x4096 : S1x8x1.Broadcasts S16x8x4096
  shapeCasts_S16x8x4096_S128x4096 : S16x8x4096.ShapeCasts S128x4096
  inb_S128_S128_0 : ∀ a, (![0] : Fin 1 → Nat) a + S128.size a ≤ S128.size a
  h_S128 : 0 < S128.numel
  iota_S128x32_d1_w32 : S128x32.Iotas .tc 32 [1]
  shapeCasts_S128_S128x1 : S128.ShapeCasts S128x1
  broadcasts_S128x1_S128x32 : S128x1.Broadcasts S128x32
  natLt_1_32 : 1 < 32
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S128x32_S32x4096_S128x4096_1_0_0_1_n_n_wf : DotDims.WF S128x32 S32x4096 S128x4096 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S512x4096.size a
  hwx0_0 : ∀ i : grid0.Coords, EltTy.bits .i32 = 32 ∨ (Rect.block (s := S512x4096) S16x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x4096.size a
  hwx0_1 : ∀ i : grid0.Coords, EltTy.bits .f32 = 32 ∨ (Rect.block (s := S32x4096) S32x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S4096.size a
  hwx0_3 : ∀ i : grid0.Coords, EltTy.bits .i32 = 32 ∨ (Rect.block (s := S4096) S128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .bf16 = 32 ∨ (Rect.block (s := S4096x4096) S128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S32x512x1 : Shape := ⟨3, ![32, 512, 1]⟩
abbrev S1x1x8 : Shape := ⟨3, ![1, 1, 8]⟩
abbrev S32x512x8 : Shape := ⟨3, ![32, 512, 8]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .i32⟩
  | .hbm, ⟨5, _⟩ => ⟨S4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S32x512x1, .i32⟩
  | .hbm, ⟨14, _⟩ => ⟨S1x1x8, .i32⟩
  | .hbm, ⟨15, _⟩ => ⟨S32x512x8, .i32⟩
  | .hbm, ⟨16, _⟩ => ⟨S32x512x8, .i32⟩
  | .hbm, ⟨17, _⟩ => ⟨S32x512x8, .i32⟩
  | .hbm, ⟨18, _⟩ => ⟨S_, .i32⟩
  | .hbm, ⟨19, _⟩ => ⟨S32x512x8, .i32⟩
  | .hbm, ⟨20, _⟩ => ⟨S32x512x8, .i32⟩
  | .hbm, ⟨21, _⟩ => ⟨S_, .i32⟩
  | .hbm, ⟨22, _⟩ => ⟨S32x512x8, .i32⟩
  | .hbm, ⟨23, _⟩ => ⟨S32x512x8, .i32⟩
  | .hbm, ⟨24, _⟩ => ⟨S32x4096, .i32⟩
  | .hbm, ⟨25, _⟩ => ⟨S512x1x4096, .i32⟩
  | .hbm, ⟨26, _⟩ => ⟨S1x8x1, .i32⟩
  | .hbm, ⟨27, _⟩ => ⟨S512x8x4096, .i32⟩
  | .hbm, ⟨28, _⟩ => ⟨S512x8x4096, .i32⟩
  | .hbm, ⟨29, _⟩ => ⟨S512x8x4096, .i32⟩
  | .hbm, ⟨30, _⟩ => ⟨S_, .i32⟩
  | .hbm, ⟨31, _⟩ => ⟨S512x8x4096, .i32⟩
  | .hbm, ⟨32, _⟩ => ⟨S512x8x4096, .i32⟩
  | .hbm, ⟨33, _⟩ => ⟨S4096x4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x4096, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096x4096, .i32⟩
  | .hbm, ⟨52, _⟩ => ⟨S4096x4096, .i32⟩
  | .hbm, ⟨53, _⟩ => ⟨S4096x4096, .f32⟩
  | .hbm, ⟨54, _⟩ => ⟨S4096x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S32x4096_S4096x1_S4096x4096_1_0_n_n_0_1_14096_wf : GatherDims.WF S32x4096 S4096x1 S4096x4096 [1] [0] [] [0] [] 1 ![1, 4096]
  dot_S8192x4096_S4096x4096_S8192x4096_1_0_0_1_n_n_wf : DotDims.WF S8192x4096 S4096x4096 S8192x4096 [1] [0] [0] [1] [] []

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of the quantized linear layer, stated once over literal shapes and free of any program.

  A packed weight word holds eight 4-bit fields; field `p` of a word `w` is `(w >> 4p) & 15` (`nib`). Row `r` of the
  unpacked weight matrix is field `r % 8` of packed row `r / 8` (`wI`); column `o` of the unpacked zero points is
  field `o % 8` of packed column `o / 8`, plus one (`zerosI`). Every input row `r` carries a group number `g r`; the
  dequantized weight is `scale[g r, o] · (w[r, o] − zero[g r, o])` and the layer is `x · W + bias`.

  Two spellings of the dequantized weight are stated here. `deqW` selects a row's group by a 0/1 indicator summed
  against the whole scale and zero tables and subtracts after conversion to a real; `refW` reads the tables at the
  row's group directly (negative group numbers wrapped once by the table's height, then clamped into the table) and
  subtracts the integer fields before conversion. `Bridge` proves them equal when every group number is in range.
-/
import Idealize.ShloMosaic.PureOps.Ideal
import Idealize.ShloMosaic.Lib.ValueIdx

noncomputable section

open scoped BigOperators

namespace Cert.QuantLinear

open Idealize.ShloMosaic Idealize.ShloMosaic.ValueIdx

abbrev SX : Shape := ⟨2, ![8192, 4096]⟩
abbrev SQW : Shape := ⟨2, ![512, 4096]⟩
abbrev SQZ : Shape := ⟨2, ![32, 512]⟩
abbrev STab : Shape := ⟨2, ![32, 4096]⟩
abbrev SG : Shape := ⟨1, ![4096]⟩
abbrev SW : Shape := ⟨2, ![4096, 4096]⟩
abbrev SB2 : Shape := ⟨2, ![1, 4096]⟩

/-- Field `p` of a packed word: the word shifted right (arithmetically) by `4p` bits, masked to its low four bits. -/
def nib (w : BitVec 32) (p : Nat) : BitVec 32 := (w.sshiftRight (4 * p)) &&& 15#32

/-- The unpacked 4-bit weights: entry `(r, o)` is field `r % 8` of packed word `(r / 8, o)`. -/
def wI (qw : IVec SQW 32) : IVec SW 32 := fun i =>
  nib (qw (ix2 (⟨(i 0).val / 8, by have := idx2_lt0 i; omega⟩ : Fin 512) (⟨(i 1).val, idx2_lt1 i⟩ : Fin 4096))) ((i 0).val % 8)

/-- The unpacked zero points: entry `(G, o)` is field `o % 8` of packed word `(G, o / 8)`, plus one. -/
def zerosI (qz : IVec SQZ 32) : IVec STab 32 := fun i =>
  nib (qz (ix2 (⟨(i 0).val, idx2_lt0 i⟩ : Fin 32) (⟨(i 1).val / 8, by have := idx2_lt1 i; omega⟩ : Fin 512))) ((i 1).val % 8) + 1#32

/-- The zero points as extended reals (each integer read signed, exactly). -/
def zerosF (qz : IVec SQZ 32) : STab.Idx → EReal := fun i => (((zerosI qz i).toInt : ℝ) : EReal)

/-- The 0/1 indicator "group word `g` is the number `G`". -/
def oh (g : BitVec 32) (G : Nat) : EReal := if g = BitVec.ofNat 32 G then 1 else 0

/-- The dequantized weight, groups selected by indicator sums over the tables:
    `(w[r, o] − Σ_G [g r = G] · zero[G, o]) · (Σ_G [g r = G] · scale[G, o])`. -/
def deqW (qw : IVec SQW 32) (sc zf : STab.Idx → EReal) (gi : IVec SG 32) : SW.Idx → EReal := fun i =>
  ((((wI qw i).toInt : ℝ) : EReal)
      - ∑ G : Fin 32, oh (gi (ix1 (⟨(i 0).val, idx2_lt0 i⟩ : Fin 4096))) G.val * zf (ix2 G (⟨(i 1).val, idx2_lt1 i⟩ : Fin 4096)))
    * ∑ G : Fin 32, oh (gi (ix1 (⟨(i 0).val, idx2_lt0 i⟩ : Fin 4096))) G.val * sc (ix2 G (⟨(i 1).val, idx2_lt1 i⟩ : Fin 4096))

/-- A group word as a table row: a negative word wrapped once by the table's height 32, then read signed and clamped into `[0, 31]`. -/
def rowOf (g : BitVec 32) : Fin 32 :=
  ⟨min (if g.slt 0#32 then g + 32#32 else g).toInt.toNat 31, by omega⟩

/-- The dequantized weight, tables read at the row's group: `scale[g r, o] · (w[r, o] − zero[g r, o])`, the
    subtraction on the integer fields. -/
def refW (qw : IVec SQW 32) (qz : IVec SQZ 32) (sc : STab.Idx → EReal) (gi : IVec SG 32) : SW.Idx → EReal := fun i =>
  sc (ix2 (rowOf (gi (ix1 (⟨(i 0).val, idx2_lt0 i⟩ : Fin 4096)))) (⟨(i 1).val, idx2_lt1 i⟩ : Fin 4096))
    * ((((wI qw i - zerosI qz (ix2 (rowOf (gi (ix1 (⟨(i 0).val, idx2_lt0 i⟩ : Fin 4096)))) (⟨(i 1).val, idx2_lt1 i⟩ : Fin 4096))).toInt : ℝ)) : EReal)

/-- The layer: `out[t, o] = Σ_j x[t, j] · W[j, o] + b[0, o]`, the bias a one-row matrix. -/
def gemm (x : SX.Idx → EReal) (W : SW.Idx → EReal) (b : SB2.Idx → EReal) : SX.Idx → EReal := fun i =>
  (∑ j : Fin 4096, x (ix2 (⟨(i 0).val, idx2_lt0 i⟩ : Fin 8192) j) * W (ix2 j (⟨(i 1).val, idx2_lt1 i⟩ : Fin 4096)))
    + b (ix2 (0 : Fin 1) (⟨(i 1).val, idx2_lt1 i⟩ : Fin 4096))

/-- The bias vector as a one-row matrix. -/
def biasRow (bias : SG.Idx → EReal) : SB2.Idx → EReal := fun i => bias (ix1 (⟨(i 1).val, idx2_lt1 i⟩ : Fin 4096))

end Cert.QuantLinear

end
-- ==== Proof.HostValue.lean ====
/-
  The host side of the idealized kernel's program, read back.

  Before the first region the program unpacks the zero points on the host — each packed word shifted right by
  `0 + 4·p` for its eight fields `p`, masked to four bits, one added, the `[32, 512, 8]` result laid out as `[32, 4096]`
  (column `o` is field `o % 8` of packed column `o / 8`) and converted to floats — and lays the bias out as one row.
  Here: those two arrays as the first region finds them are `zerosF` of the packed zero points and `biasRow` of the
  bias; the arguments are as launched; and the arrays the second region finds are the first region's where it
  wrote them and the first region's entry contents elsewhere.
-/
import proofs.«426221_j26293789786976_3_alg».proof.Proof.Gen.KernelIdeal.Frame
import proofs.«426221_j26293789786976_3_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HostValue

open Idealize.ShloMosaic Idealize.ShloMosaic.TcCoe Idealize.ShloMosaic.Tactic Idealize.SL.Sem Idealize.ShloMosaic.StableHlo
open Cert.KernelIdeal Cert.KernelIdeal.Gen Idealize.ShloMosaic.ValueIdx Cert.QuantLinear

/-! ## Words: the shift amounts and the shifted field -/

/-- The shift amount of field `p`, the word `0 + 4·p`, is the number `4p`. -/
theorem shift_word (p : Fin 8) : (IntOp.addi 0#32 (IntOp.muli 4#32 (BitVec.ofNat 32 p.val))).toNat = 4 * p.val := by
  revert p; decide

/-- Shifting a word right by field `p`'s amount (below the word's width, so no corner case) and masking is `nib`. -/
theorem field_eq (u : ArithUnit) (x : BitVec 32) (p : Fin 8) :
    IntOp.andi (IntOp.shrsi u x (IntOp.addi 0#32 (IntOp.muli 4#32 (BitVec.ofNat 32 p.val)))) 15#32 = nib x p.val := by
  unfold IntOp.shrsi
  rw [if_pos (by rw [shift_word]; omega)]
  show (x.sshiftRight (IntOp.addi 0#32 (IntOp.muli 4#32 (BitVec.ofNat 32 p.val))).toNat) &&& 15#32 = _
  rw [shift_word]
  rfl

/-! ## The zero points' host chain at an index -/

/-- The host operations on the packed zero points, composed: shift by the field amounts, mask, add one, lay out as `[32, 4096]`. -/
def zchain (a2 : IVec S32x512 32) : IVec S32x4096 32 :=
  shapeCast S32x4096
    (addi
      (andi
        (Host.shrsi
          (broadcastInDim S32x512x8 ![0, 1, 2] bcast_S32x512x1_S32x512x8_0_1_2
            (broadcastInDim S32x512x1 ![0, 1] bcast_S32x512_S32x512x1_0_1 a2))
          (broadcastInDim S32x512x8 ![0, 1, 2] bcast_S1x1x8_S32x512x8_0_1_2
            (broadcastInDim S1x1x8 ![2] bcast_S8_S1x1x8_2
              (addi (broadcastInDim S8 ![] bcast_S_S8 (constantI S_ 32 0#32))
                (muli (broadcastInDim S8 ![] bcast_S_S8 (constantI S_ 32 4#32)) (iotaInDim S8 32 0))))))
        (broadcastInDim S32x512x8 ![] bcast_S_S32x512x8 (constantI S_ 32 15#32)))
      (broadcastInDim S32x512x8 ![] bcast_S_S32x512x8 (constantI S_ 32 1#32)))
    shapeCasts_S32x512x8_S32x4096

/-- The packed words broadcast along the field axis, read at `(G, a, p)`: word `(G, a)`. -/
theorem words_apply (a2 : IVec S32x512 32) (G : Fin 32) (a : Fin 512) (p : Fin 8) :
    broadcastInDim S32x512x8 ![0, 1, 2] bcast_S32x512x1_S32x512x8_0_1_2
        (broadcastInDim S32x512x1 ![0, 1] bcast_S32x512_S32x512x1_0_1 a2) (ix3 G a p) = a2 (ix2 G a) := by
  rw [broadcastInDim_apply _ _ _ (ix3 G a p) (ix3 G a (0 : Fin 1))
      (fun x => by match x with | ⟨0, _⟩ => rfl | ⟨1, _⟩ => rfl | ⟨2, _⟩ => rfl),
    broadcastInDim_apply _ _ _ (ix3 G a (0 : Fin 1)) (ix2 G a)
      (fun x => by match x with | ⟨0, _⟩ => rfl | ⟨1, _⟩ => rfl)]

/-- The shift amounts broadcast along the word axes, read at `(G, a, p)`: the amount of field `p`. -/
theorem shifts_apply (G : Fin 32) (a : Fin 512) (p : Fin 8) :
    broadcastInDim S32x512x8 ![0, 1, 2] bcast_S1x1x8_S32x512x8_0_1_2
        (broadcastInDim S1x1x8 ![2] bcast_S8_S1x1x8_2
          (addi (broadcastInDim S8 ![] bcast_S_S8 (constantI S_ 32 0#32))
            (muli (broadcastInDim S8 ![] bcast_S_S8 (constantI S_ 32 4#32)) (iotaInDim S8 32 0)))) (ix3 G a p)
      = IntOp.addi 0#32 (IntOp.muli 4#32 (BitVec.ofNat 32 p.val)) := by
  rw [broadcastInDim_apply _ _ _ (ix3 G a p) (ix3 (0 : Fin 1) (0 : Fin 1) p)
      (fun x => by match x with | ⟨0, _⟩ => rfl | ⟨1, _⟩ => rfl | ⟨2, _⟩ => rfl),
    broadcastInDim_apply _ _ _ (ix3 (0 : Fin 1) (0 : Fin 1) p) (ix1 p)
      (fun x => by match x with | ⟨0, _⟩ => rfl)]
  rfl

/-- The chain at `(G, o)` is the specification's zero point: field `o % 8` of packed word `(G, o / 8)`, plus one. -/
theorem zchain_apply (a2 : IVec S32x512 32) (G : Fin 32) (o : Fin 4096) : zchain a2 (ix2 G o) = zerosI a2 (ix2 G o) := by
  unfold zchain
  rw [shapeCast_apply _ _ (ix2 G o)
    (ix3 G (⟨o.val / 8, by omega⟩ : Fin 512) (⟨o.val % 8, Nat.mod_lt _ (by decide)⟩ : Fin 8))
    (by rw [Shape.rowMajor_val_three, Shape.rowMajor_val_two]
        show (G.val * 512 + o.val / 8) * 8 + o.val % 8 = G.val * 4096 + o.val
        omega)]
  show IntOp.addi (IntOp.andi (IntOp.shrsi .host _ _) 15#32) 1#32 = _
  rw [words_apply, shifts_apply, field_eq]
  rfl

theorem zchain_eq (a2 : IVec S32x512 32) : zchain a2 = zerosI a2 := by
  funext i
  rw [eq_ix2 i]
  exact zchain_apply a2 _ _

/-! ## The region-entry contents -/

variable (m : (ℓ : Loc nD τ sig) → Buf (Elt Ideal) ℓ) (ρ : Dev nD → PrngReg)

/-- The float zero points as the first region finds them. -/
theorem V1_zeros (c : Dev nD) :
    (V1 m ρ c main_v15 : S32x4096.Idx → EReal) = zerosF (m ((c : Thread nD τ).loc main_arg2)) := by
  have e : (V1 m ρ c main_v15 : S32x4096.Idx → EReal)
      = sitofp (F := Ideal) .f32 (zchain (m ((c : Thread nD τ).loc main_arg2))) := by
    dsimp only [V1, W1]; after_results; rfl
  rw [e, zchain_eq]
  rfl

/-- The bias row as the first region finds it. -/
theorem V1_bias (c : Dev nD) :
    (V1 m ρ c main_v16 : S1x4096.Idx → EReal) = biasRow (m ((c : Thread nD τ).loc main_arg5)) := by
  have e : (V1 m ρ c main_v16 : S1x4096.Idx → EReal)
      = shapeCast S1x4096 (m ((c : Thread nD τ).loc main_arg5)) shapeCasts_S4096_S1x4096 := by
    dsimp only [V1, W1]; after_results; rfl
  rw [e]
  funext i
  obtain ⟨a, b, rfl⟩ : ∃ (a : Fin 1) (b : Fin 4096), i = ix2 a b := ⟨i 0, i 1, eq_ix2 i⟩
  rw [shapeCast_apply _ _ (ix2 a b) (ix1 b)
    (by rw [Shape.rowMajor_val_one, Shape.rowMajor_val_two]
        have h0 : a.val = 0 := by omega
        show b.val = a.val * 4096 + b.val
        omega)]
  rfl

/-- The arguments as the first region finds them: as launched (no host operation writes one). -/
theorem V1_arg0 (c : Dev nD) : V1 m ρ c main_arg0 = m ((c : Thread nD τ).loc main_arg0) := by
  dsimp only [V1, W1]; after_results
theorem V1_arg1 (c : Dev nD) : V1 m ρ c main_arg1 = m ((c : Thread nD τ).loc main_arg1) := by
  dsimp only [V1, W1]; after_results
theorem V1_arg3 (c : Dev nD) : V1 m ρ c main_arg3 = m ((c : Thread nD τ).loc main_arg3) := by
  dsimp only [V1, W1]; after_results
theorem V1_arg4 (c : Dev nD) : V1 m ρ c main_arg4 = m ((c : Thread nD τ).loc main_arg4) := by
  dsimp only [V1, W1]; after_results

/-! ## What the second region finds, and what it leaves -/

/-- The first region writes neither the activations nor the bias row: the second region finds them as the first did. -/
theorem V2_arg0 (c : Dev nD) : V2 m ρ c main_arg0 = V1 m ρ c main_arg0 := W2_of_ne m ρ c main_arg0 (by decide)
theorem V2_bias (c : Dev nD) : V2 m ρ c main_v16 = V1 m ρ c main_v16 := W2_of_ne m ρ c main_v16 (by decide)
/-- The weight array the second region finds is what the first region's write-backs left. -/
theorem V2_weights (c : Dev nD) : V2 m ρ c main_v17 = (dat0 (V1 m ρ) c).arrAt 4 cfg0.N := W2_arr m ρ c 4
/-- The result array after the second region is what its write-backs left. -/
theorem W3_result (c : Dev nD) : W3 m ρ c (Proc.devRef .tc main_v18) = (dat1 (V2 m ρ) c).arrAt 3 cfg1.N := W3_arr m ρ c 3

end Cert.KernelIdeal.HostValue

end
-- ==== Proof.DequantValue.lean ====
/-
  The value of the dequantization region: after its 32 grid points the [4096,4096] output array is the dequantized
  weight `deqW` of the four arrays the region reads, whatever those arrays hold when the region is entered.

  Point `t` reads rows `16 t … 16 t + 15` of the packed weights, entries `128 t … 128 t + 127` of the group numbers and
  the whole scale and zero-point tables, and writes rows `128 t … 128 t + 127` of the output. Inside a block, row `p`
  is field `p % 8` of packed row `p / 8`: the block of packed words is viewed as [16,1,4096], repeated along a new
  axis of length 8, shifted right by four times the position on that axis, masked to four bits and viewed as
  [128,4096]; all of these keep the row-major position. The row's group is picked out of each table by the product of
  the 0/1 matrix "row `p` has group `G`" with the table, which over the extended reals is the sum over the 32 groups
  of indicator times table entry; narrowing and widening of the float format change nothing there. The stored value is
  `(field − picked zero point) · picked scale`. Array row `r = 128 t + p` has `r / 8 = 16 t + p / 8` and
  `r % 8 = p % 8`, so every block is the restriction of the one whole-array function `deqW`, and the blocks tile the array.
-/
import proofs.«426221_j26293789786976_3_alg».proof.Proof.Gen.KernelIdeal.Frame
import proofs.«426221_j26293789786976_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DequantValue

open Idealize.ShloMosaic Idealize.ShloMosaic.ValueIdx Idealize.ShloMosaic.TcCoe Idealize.SL.Sem
open Idealize.ShloMosaic.Pipeline (Dat)
open Cert.KernelIdeal Cert.KernelIdeal.Gen Cert.QuantLinear

/-- The unpacked block: the [16,4096] block of packed words laid out as [128,4096] fields. -/
abbrev unpacked (v3 : IVec S16x4096 32) : IVec S128x4096 32 :=
  shapeCast S128x4096
    (andi
      (shrsi
        (broadcastTo S16x8x4096 (shapeCast S16x1x4096 v3 shapeCasts_S16x4096_S16x1x4096) broadcasts_S16x1x4096_S16x8x4096)
        (broadcastTo S16x8x4096 (muli (iota .tc S1x8x1 32 [1] iota_S1x8x1_d1_w32) (broadcast S1x8x1 4#32)) broadcasts_S1x8x1_S16x8x4096))
      (broadcast S16x8x4096 15#32))
    shapeCasts_S16x8x4096_S128x4096

/-- The group selector of the block's 128 rows against the 32 group numbers. -/
abbrev selector (v11 : IVec S128 32) : FVec Ideal S128x32 .bf16 :=
  truncf .bf16
    (sitofp .f32
      (extui 32
        (cmpi .eq
          (broadcastTo S128x32 (shapeCast S128x1 v11 shapeCasts_S128_S128x1) broadcasts_S128x1_S128x32)
          (iota .tc S128x32 32 [1] iota_S128x32_d1_w32))
        natLt_1_32))
    bitsLt_bf16_f32

/-! ## The stored value at an index of the block -/

theorem pay_eq (v3 : Vec Ideal S16x4096 .i32) (v11 : Vec Ideal S128 .i32) (v19 v21 : Vec Ideal S32x4096 .f32) (j : S128x4096.Idx) :
    k0_pay1 (F := Ideal) v3 v11 v19 v21 j
      = ((((unpacked v3 j).toInt : ℝ) : EReal)
          - FloatOps.matmul (φ₁ := .bf16) (φ₂ := .bf16) dot_S128x32_S32x4096_S128x4096_1_0_0_1_n_n none (selector v11) v21 (constant S128x4096 .f32 0x00000000#32) j)
        * FloatOps.matmul (φ₁ := .bf16) (φ₂ := .bf16) dot_S128x32_S32x4096_S128x4096_1_0_0_1_n_n none (selector v11) v19 (constant S128x4096 .f32 0x00000000#32) j := by
  unfold k0_pay1
  simp only [shapeCast_self]
  rfl

/-- The shift amount of field `b`: the word `4 b`, below the lane width. -/
theorem shift_toNat : ∀ b : Fin 8, (IntOp.muli (BitVec.ofNat 32 b.val) 4#32).toNat = 4 * b.val := by decide

/-- The packed block broadcast along the field axis reads packed row `a` at every field `b`. -/
theorem words_apply (v3 : IVec S16x4096 32) (a : Fin 16) (b : Fin 8) (o : Fin 4096) :
    broadcastTo S16x8x4096 (shapeCast S16x1x4096 v3 shapeCasts_S16x4096_S16x1x4096) broadcasts_S16x1x4096_S16x8x4096 (ix3 a b o)
      = v3 (ix2 a o) :=
  (broadcastTo_apply _ _ _ (ix3 a (0 : Fin 1) o) (fun d => by match d with | ⟨0, _⟩ => rfl | ⟨1, _⟩ => rfl | ⟨2, _⟩ => rfl)).trans
    (shapeCast_apply _ _ _ (ix2 a o) (by
      rw [Shape.rowMajor_val_three, Shape.rowMajor_val_two]
      show a.val * 4096 + o.val = (a.val * 1 + 0) * 4096 + o.val
      omega))

/-- The shift vector broadcast to the [16,8,4096] block reads `4 b` at field `b`. -/
theorem shifts_apply (a : Fin 16) (b : Fin 8) (o : Fin 4096) :
    broadcastTo S16x8x4096 (muli (iota .tc S1x8x1 32 [1] iota_S1x8x1_d1_w32) (broadcast S1x8x1 4#32)) broadcasts_S1x8x1_S16x8x4096 (ix3 a b o)
      = IntOp.muli (BitVec.ofNat 32 b.val) 4#32 :=
  (broadcastTo_apply _ _ _ (ix3 (0 : Fin 1) b (0 : Fin 1)) (fun d => by match d with | ⟨0, _⟩ => rfl | ⟨1, _⟩ => rfl | ⟨2, _⟩ => rfl)).trans (by
    show IntOp.muli (iota .tc S1x8x1 32 [1] iota_S1x8x1_d1_w32 (ix3 (0 : Fin 1) b (0 : Fin 1))) 4#32 = _
    rw [iota_single_apply])

/-- Block row `p` of the unpacked block is field `p % 8` of packed row `p / 8`: the casts through [16,1,4096] and
    [16,8,4096] keep the row-major position, and the shift amount at field `b` is `4 b`. -/
theorem unpacked_apply (v3 : IVec S16x4096 32) (p : Fin 128) (o : Fin 4096) :
    unpacked v3 (ix2 p o) = nib (v3 (ix2 (⟨p.val / 8, by omega⟩ : Fin 16) o)) (p.val % 8) := by
  unfold unpacked
  refine (shapeCast_apply _ _ (ix2 p o) (ix3 (⟨p.val / 8, by omega⟩ : Fin 16) (⟨p.val % 8, Nat.mod_lt _ (by decide)⟩ : Fin 8) o) ?_).trans ?_
  · rw [Shape.rowMajor_val_three, Shape.rowMajor_val_two]
    show ((p.val / 8) * 8 + p.val % 8) * 4096 + o.val = p.val * 4096 + o.val
    omega
  · show IntOp.andi (IntOp.shrsi .vector _ _) 15#32 = _
    rw [words_apply, shifts_apply]
    have hs := shift_toNat (⟨p.val % 8, Nat.mod_lt _ (by decide)⟩ : Fin 8)
    unfold IntOp.shrsi
    rw [if_pos (by rw [hs]; show 4 * (p.val % 8) < 32; omega)]
    unfold nib IntOp.andi
    rw [BitVec.sshiftRight_eq', hs]

/-- The selector at row `p` and group `G` is the indicator that the row's group word is the number `G`: the compare bit,
    widened and read signed, is `1` or `0`. -/
theorem selector_apply (v11 : IVec S128 32) (p : Fin 128) (G : Fin 32) :
    selector v11 (ix2 p G) = oh (v11 (ix1 p)) G.val := by
  unfold selector
  show ((((IntOp.cmpi .eq (broadcastTo S128x32 (shapeCast S128x1 v11 shapeCasts_S128_S128x1) broadcasts_S128x1_S128x32 (ix2 p G))
      (iota .tc S128x32 32 [1] iota_S128x32_d1_w32 (ix2 p G))).setWidth 32).toInt : ℝ) : EReal) = _
  rw [iota_single_apply,
    broadcastTo_apply _ _ _ (ix2 p (0 : Fin 1)) (fun d => by match d with | ⟨0, _⟩ => rfl | ⟨1, _⟩ => rfl),
    shapeCast_apply _ _ _ (ix1 p) (by
      rw [Shape.rowMajor_val_one, Shape.rowMajor_val_two]
      show p.val = p.val * 1 + 0
      omega)]
  show ((((IntOp.cmpi .eq (v11 (ix1 p)) (BitVec.ofNat 32 G.val)).setWidth 32).toInt : ℝ) : EReal) = _
  unfold oh IntOp.cmpi
  by_cases h : v11 (ix1 p) = BitVec.ofNat 32 G.val
  · have hb : (v11 (ix1 p) == BitVec.ofNat 32 G.val) = true := by rw [h]; exact beq_self_eq_true _
    rw [if_pos h]
    show ((((BitVec.ofBool (v11 (ix1 p) == BitVec.ofNat 32 G.val)).setWidth 32).toInt : ℝ) : EReal) = 1
    rw [hb, show ((BitVec.ofBool true).setWidth 32).toInt = 1 from by decide]
    simp
  · have hb : (v11 (ix1 p) == BitVec.ofNat 32 G.val) = false := beq_eq_false_iff_ne.mpr h
    rw [if_neg h]
    show ((((BitVec.ofBool (v11 (ix1 p) == BitVec.ofNat 32 G.val)).setWidth 32).toInt : ℝ) : EReal) = 0
    rw [hb, show ((BitVec.ofBool false).setWidth 32).toInt = 0 from by decide]
    simp

/-! The matrix product's two operand indices, axis by axis. -/

theorem lhs_sel_0 (j : S128x4096.Idx) (q : dot_S128x32_S32x4096_S128x4096_1_0_0_1_n_n.contr.Idx) :
    (dot_S128x32_S32x4096_S128x4096_1_0_0_1_n_n.lhsIdx j q 0).val = (j 0).val := by
  unfold DotDims.lhsIdx
  rw [dif_neg (show ¬(0 : Fin S128x32.rank) ∈ dot_S128x32_S32x4096_S128x4096_1_0_0_1_n_n.lhsBatch by decide), dif_pos (show (0 : Fin S128x32.rank) ∈ dot_S128x32_S32x4096_S128x4096_1_0_0_1_n_n.lhsNonContracting by decide)]
  rfl
theorem lhs_sel_1 (j : S128x4096.Idx) (q : dot_S128x32_S32x4096_S128x4096_1_0_0_1_n_n.contr.Idx) :
    (dot_S128x32_S32x4096_S128x4096_1_0_0_1_n_n.lhsIdx j q 1).val = (q ⟨0, by decide⟩).val :=
  dot_S128x32_S32x4096_S128x4096_1_0_0_1_n_n.lhsIdx_val_of_single rfl j q
theorem rhs_tab_0 (j : S128x4096.Idx) (q : dot_S128x32_S32x4096_S128x4096_1_0_0_1_n_n.contr.Idx) :
    (dot_S128x32_S32x4096_S128x4096_1_0_0_1_n_n.rhsIdx j q 0).val = (q ⟨0, by decide⟩).val :=
  dot_S128x32_S32x4096_S128x4096_1_0_0_1_n_n.rhsIdx_val_of_single rfl j q
theorem rhs_tab_1 (j : S128x4096.Idx) (q : dot_S128x32_S32x4096_S128x4096_1_0_0_1_n_n.contr.Idx) :
    (dot_S128x32_S32x4096_S128x4096_1_0_0_1_n_n.rhsIdx j q 1).val = (j 1).val := by
  unfold DotDims.rhsIdx
  rw [dif_neg (show ¬(1 : Fin S32x4096.rank) ∈ dot_S128x32_S32x4096_S128x4096_1_0_0_1_n_n.rhsBatch by decide), dif_pos (show (1 : Fin S32x4096.rank) ∈ dot_S128x32_S32x4096_S128x4096_1_0_0_1_n_n.rhsNonContracting by decide)]
  rfl

/-- A [128,32] by [32,4096] product into the zero accumulator, at row `p` and column `o`, is the sum over the 32
    groups of the row's entry times the column's entry. -/
theorem product_apply (sel : FVec Ideal S128x32 .bf16) (tab : FVec Ideal S32x4096 .bf16) (p : Fin 128) (o : Fin 4096) :
    FloatOps.matmul (φ₁ := .bf16) (φ₂ := .bf16) dot_S128x32_S32x4096_S128x4096_1_0_0_1_n_n none sel tab (constant S128x4096 .f32 0x00000000#32) (ix2 p o)
      = ∑ G : Fin 32, sel (ix2 p G) * tab (ix2 G o) := by
  rw [Ideal.matmul_constant_zero_apply, ← Equiv.sum_comp (contrEquiv1 dot_S128x32_S32x4096_S128x4096_1_0_0_1_n_n 32 rfl rfl).symm]
  refine Finset.sum_congr rfl fun k _ => ?_
  have hk := contrEquiv1_symm_val dot_S128x32_S32x4096_S128x4096_1_0_0_1_n_n 32 rfl rfl k
  have el : dot_S128x32_S32x4096_S128x4096_1_0_0_1_n_n.lhsIdx (ix2 p o) ((contrEquiv1 dot_S128x32_S32x4096_S128x4096_1_0_0_1_n_n 32 rfl rfl).symm k) = ix2 p k := funext fun a => Fin.ext (by
    match a with
    | ⟨0, _⟩ => exact lhs_sel_0 _ _
    | ⟨1, _⟩ => exact (lhs_sel_1 _ _).trans hk)
  have er : dot_S128x32_S32x4096_S128x4096_1_0_0_1_n_n.rhsIdx (ix2 p o) ((contrEquiv1 dot_S128x32_S32x4096_S128x4096_1_0_0_1_n_n 32 rfl rfl).symm k) = ix2 k o := funext fun a => Fin.ext (by
    match a with
    | ⟨0, _⟩ => exact (rhs_tab_0 _ _).trans hk
    | ⟨1, _⟩ => exact rhs_tab_1 _ _)
  rw [el, er]

/-- THE PAYLOAD AT AN INDEX: block row `p`, column `o` of what the body stores is the row's field, minus the row's zero
    point picked out of the zero table by the indicator sum, times the row's scale picked out the same way. -/
theorem pay_apply (v3 : Vec Ideal S16x4096 .i32) (v11 : Vec Ideal S128 .i32) (v19 v21 : Vec Ideal S32x4096 .f32) (p : Fin 128) (o : Fin 4096) :
    k0_pay1 (F := Ideal) v3 v11 v19 v21 (ix2 p o)
      = ((((nib (v3 (ix2 (⟨p.val / 8, by omega⟩ : Fin 16) o)) (p.val % 8)).toInt : ℝ) : EReal)
          - ∑ G : Fin 32, oh (v11 (ix1 p)) G.val * v21 (ix2 G o))
        * ∑ G : Fin 32, oh (v11 (ix1 p)) G.val * v19 (ix2 G o) := by
  rw [pay_eq, unpacked_apply, product_apply, product_apply]
  simp only [selector_apply]

/-! ## From the blocks to the array -/

/-- One block of the output against the whole arrays: if the packed block is rows `16 t …` of the packed weights, the
    group block entries `128 t …` of the group numbers and the two tables are whole, then block row `p` is array row
    `128 t + p` of the dequantized weight (array row `r = 128 t + p` has `r / 8 = 16 t + p / 8` and `r % 8 = p % 8`). -/
theorem block_apply (qw : IVec SQW 32) (sc zf : STab.Idx → EReal) (gi : IVec SG 32) (t : Nat)
    (x0 : Vec Ideal S16x4096 .i32) (x1 x2 : Vec Ideal S32x4096 .f32) (x3 : Vec Ideal S128 .i32)
    (h0 : ∀ (a : Fin 16) (o : Fin 4096) (k : Fin 512), k.val = 16 * t + a.val → x0 (ix2 a o) = qw (ix2 k o))
    (h1 : ∀ (G : Fin 32) (o : Fin 4096), x1 (ix2 G o) = sc (ix2 G o))
    (h2 : ∀ (G : Fin 32) (o : Fin 4096), x2 (ix2 G o) = zf (ix2 G o))
    (h3 : ∀ (p : Fin 128) (k : Fin 4096), k.val = 128 * t + p.val → x3 (ix1 p) = gi (ix1 k))
    (p : Fin 128) (o : Fin 4096) (r : Fin 4096) (hr : r.val = 128 * t + p.val) :
    k0_pay1 (F := Ideal) x0 x3 x1 x2 (ix2 p o) = deqW qw sc zf gi (ix2 r o) := by
  rw [pay_apply]
  unfold deqW wI
  have hp := p.isLt
  rw [h0 _ o (⟨r.val / 8, by have := r.isLt; omega⟩ : Fin 512) (by show r.val / 8 = 16 * t + p.val / 8; omega),
    h3 p (⟨r.val, r.isLt⟩ : Fin 4096) hr, show p.val % 8 = r.val % 8 from by omega]
  simp only [h1, h2]

section Array
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: windows 0, 3 and 4 sit at block `t` of their first axis, the two tables at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val
    ∧ win0_4.index t (0 : Fin 2) = t.val ∧ win0_4.index t (1 : Fin 2) = 0 :=
  (by decide +kernel : ∀ t : Fin grid0.N, _)

/-- Block `t` of the packed weights is their rows `16 t … 16 t + 15`. -/
theorem qw_block (c : Dev nD) (t : Fin cfg0.N) (a : Fin 16) (o : Fin 4096) (k : Fin 512) (hk : k.val = 16 * t.val + a.val) :
    (iblk0 V c 0 t : Vec Ideal S16x4096 .i32) (ix2 a o) = (V c main_arg1 : IVec SQW 32) (ix2 k o) := by
  obtain ⟨e00, e01, -⟩ := idx_facts t
  unfold iblk0
  rw [View.read_apply]
  show V c main_arg1 (((cfg0.win 0).blk t).view.emb (ix2 a o)) = V c main_arg1 (ix2 k o)
  congr 1
  funext d
  apply Fin.ext
  match d with
  | ⟨0, _⟩ => show win0_0.index t (0 : Fin 2) * 16 + 1 * a.val = k.val; rw [e00, hk]; omega
  | ⟨1, _⟩ => show win0_0.index t (1 : Fin 2) * 4096 + 1 * o.val = o.val; rw [e01]; omega

/-- Block `t` of the group numbers is their entries `128 t … 128 t + 127`. -/
theorem gi_block (c : Dev nD) (t : Fin cfg0.N) (p : Fin 128) (k : Fin 4096) (hk : k.val = 128 * t.val + p.val) :
    (iblk0 V c 3 t : Vec Ideal S128 .i32) (ix1 p) = (V c main_arg4 : IVec SG 32) (ix1 k) := by
  obtain ⟨-, -, -, -, -, -, e30, -⟩ := idx_facts t
  unfold iblk0
  rw [View.read_apply]
  show V c main_arg4 (((cfg0.win 3).blk t).view.emb (ix1 p)) = V c main_arg4 (ix1 k)
  congr 1
  funext d
  apply Fin.ext
  match d with
  | ⟨0, _⟩ => show win0_3.index t (0 : Fin 1) * 128 + 1 * p.val = k.val; rw [e30, hk]; omega

/-- The scale table's one block is the table. -/
theorem sc_block (c : Dev nD) (t : Fin cfg0.N) (G : Fin 32) (o : Fin 4096) :
    (iblk0 V c 1 t : Vec Ideal S32x4096 .f32) (ix2 G o) = (V c main_arg3 : STab.Idx → EReal) (ix2 G o) := by
  obtain ⟨-, -, e10, e11, -⟩ := idx_facts t
  unfold iblk0
  rw [View.read_apply]
  show V c main_arg3 (((cfg0.win 1).blk t).view.emb (ix2 G o)) = V c main_arg3 (ix2 G o)
  congr 1
  funext d
  apply Fin.ext
  match d with
  | ⟨0, _⟩ => show win0_1.index t (0 : Fin 2) * 32 + 1 * G.val = G.val; rw [e10]; omega
  | ⟨1, _⟩ => show win0_1.index t (1 : Fin 2) * 4096 + 1 * o.val = o.val; rw [e11]; omega

/-- The zero-point table's one block is the table. -/
theorem zf_block (c : Dev nD) (t : Fin cfg0.N) (G : Fin 32) (o : Fin 4096) :
    (iblk0 V c 2 t : Vec Ideal S32x4096 .f32) (ix2 G o) = (V c main_v15 : STab.Idx → EReal) (ix2 G o) := by
  obtain ⟨-, -, -, -, e20, e21, -⟩ := idx_facts t
  unfold iblk0
  rw [View.read_apply]
  show V c main_v15 (((cfg0.win 2).blk t).view.emb (ix2 G o)) = V c main_v15 (ix2 G o)
  congr 1
  funext d
  apply Fin.ext
  match d with
  | ⟨0, _⟩ => show win0_2.index t (0 : Fin 2) * 32 + 1 * G.val = G.val; rw [e20]; omega
  | ⟨1, _⟩ => show win0_2.index t (1 : Fin 2) * 4096 + 1 * o.val = o.val; rw [e21]; omega

theorem flushed_eq (c : Dev nD) (t : Fin cfg0.N) :
    (dat0 (F := Ideal) V c).flushed 4 t
      = ((cfg0.win 4).blk t).view.read (Elt Ideal) (deqW (V c main_arg1) (V c main_arg3) (V c main_v15) (V c main_arg4)) := by
  show (cfg0.win 4).cut (grid0.coords t) ((dat0 V c).after 4 t) = _
  rw [after0_4]
  unfold out0_4
  rw [View.canon_unit_zero hz2]
  simp only [View.ld_unit_zero (S := S16x4096) hz2, View.ld_unit_zero (S := S32x4096) hz2, View.ld_unit_zero (S := S128) hz1]
  funext j
  obtain ⟨p, o, rfl⟩ : ∃ (p : Fin 128) (o : Fin 4096), j = ix2 p o := ⟨j 0, j 1, eq_ix2 j⟩
  obtain ⟨-, -, -, -, -, -, -, e40, e41⟩ := idx_facts t
  have ht : t.val < 32 := lt_of_lt_of_eq t.isLt N_0
  rw [View.read_apply]
  show k0_pay1 (F := Ideal) (iblk0 V c 0 t) (iblk0 V c 3 t) (iblk0 V c 1 t) (iblk0 V c 2 t) (ix2 p o)
    = deqW (V c main_arg1) (V c main_arg3) (V c main_v15) (V c main_arg4) (((cfg0.win 4).blk t).view.emb (ix2 p o))
  refine (block_apply (V c main_arg1) (V c main_arg3) (V c main_v15) (V c main_arg4) t.val
    (iblk0 V c 0 t) (iblk0 V c 1 t) (iblk0 V c 2 t) (iblk0 V c 3 t)
    (fun a o k hk => qw_block V c t a o k hk) (fun G o => sc_block V c t G o) (fun G o => zf_block V c t G o)
    (fun p k hk => gi_block V c t p k hk) p o (⟨128 * t.val + p.val, by have := p.isLt; omega⟩ : Fin 4096) rfl).trans ?_
  congr 1
  funext d
  apply Fin.ext
  match d with
  | ⟨0, _⟩ => show 128 * t.val + p.val = win0_4.index t (0 : Fin 2) * 128 + 1 * p.val; rw [e40]; omega
  | ⟨1, _⟩ => show o.val = win0_4.index t (1 : Fin 2) * 4096 + 1 * o.val; rw [e41]; omega

/-- An index of the [4096,4096] array lies in point `t`'s block iff each coordinate lies in the block's range on its axis. -/
theorem mem_blk (t : Fin cfg0.N) (i : S4096x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v17).slice (win0_4.rect t)).set ↔ _
  rw [View.set_slice_whole, Rect.mem_set_unit]
  exact Iff.rfl

/-- The blocks tile the array: row `r` lies in the block of point `r / 128`, which is written back. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 32 := N_0
  obtain ⟨-, -, -, -, -, -, -, e40, e41⟩ := idx_facts (⟨(i 0).val / 128, by rw [hN]; omega⟩ : Fin cfg0.N)
  refine ⟨(⟨(i 0).val / 128, by rw [hN]; omega⟩ : Fin cfg0.N), flush0_4 _, ?_⟩
  rw [mem_blk]
  intro a
  match a with
  | ⟨0, _⟩ =>
    show win0_4.index _ (0 : Fin 2) * 128 ≤ (i 0).val ∧ (i 0).val < win0_4.index _ (0 : Fin 2) * 128 + 128
    rw [e40]; show (i 0).val / 128 * 128 ≤ (i 0).val ∧ (i 0).val < (i 0).val / 128 * 128 + 128; omega
  | ⟨1, _⟩ =>
    show win0_4.index _ (1 : Fin 2) * 4096 ≤ (i 1).val ∧ (i 1).val < win0_4.index _ (1 : Fin 2) * 4096 + 4096
    rw [e41]; omega

/-- REGION 0's VALUE: after all 32 points the output array is the dequantized weight of the packed weights, the scales,
    the float zero points and the group numbers as the region finds them. -/
theorem arrAt_eq (c : Dev nD) :
    ((dat0 (F := Ideal) V c).arrAt 4 cfg0.N)
      = deqW (V c main_arg1) (V c main_arg3) (V c main_v15) (V c main_arg4) :=
  (dat0 (F := Ideal) V c).arrAt_eq_of_cover 4 (deqW (V c main_arg1) (V c main_arg3) (V c main_v15) (V c main_arg4))
    (fun t _ => flushed_eq V c t) cover

end Array

end Cert.KernelIdeal.DequantValue

end
-- ==== Proof.GemmValue.lean ====
/-
  The value of the second region: a blocked matrix product with a bias row, over the extended reals.

  The output `[8192, 4096]` is cut into blocks `[1024, 2048]` indexed `(mi, ni)`, the contracted axis of length 4096 into
  eight blocks of 512 indexed `k`. The grid runs `(mi, ni, k)` with `k` innermost: point `t = 16·mi + 8·ni + k` reads the
  input block `(mi, k)`, the weight block `(k, ni)` and the bias block `(0, ni)`, and carries the output block `(mi, ni)`
  from point to point. At `k = 0` the block is set to zero and gains the block product; at `0 < k < 7` it gains the block
  product; at `k = 7` it gains the block product and then the bias row on each of its rows, and only then is written back.

  So after point `t` with `k < 7` entry `(p, q)` of the carried block is the running sum
  `Σ_{j < 512·(k+1)} x[1024·mi + p, j] · W[j, 2048·ni + q]` (induction on the point; the step is the splitting of a sum over
  an initial segment of the naturals into a shorter segment and one block of 512, which needs only that addition of extended
  reals is a commutative monoid), after a point with `k = 7` it is the full sum over `j < 4096` plus `b[0, 2048·ni + q]`,
  and the blocks written back at the sixteen points with `k = 7` tile the output array. Hence the array ends at
  `out[r, o] = Σ_{j < 4096} x[r, j] · W[j, o] + b[0, o]`, whatever the three operand arrays hold when the region is entered.
-/
import proofs.«426221_j26293789786976_3_alg».proof.Proof.Gen.KernelIdeal.Frame
import proofs.«426221_j26293789786976_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.GemmValue

open Cert.KernelIdeal Cert.KernelIdeal.Gen Idealize.ShloMosaic.ValueIdx

/-! ## What each control case leaves in the output block, as the payloads of its stores -/

section Pieces
variable {F : FTy → Type} [FloatOps F]

theorem hz : (![0, 0] : Fin 2 → Nat) = fun _ => 0 := funext fun a => by fin_cases a <;> rfl

/-- A middle step (0 < k < 7): the block holding `xo` ends holding `xo + x·w`, the one covering store's payload. -/
theorem out_B (c : Dev nD) (i : grid1.Coords) (a3 : Memref sig .tc .vmem S1024x512 .f32) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (hc0 : ¬cond1_0 i) (hc1 : ¬cond1_1 i)
    (x0 : Vec F S1024x512 .f32) (x1 : Vec F S512x2048 .bf16) (x2 : Vec F S1x2048 .f32) (xo : Vec F S1024x2048 .f32) :
    out1_B_3 c i a3 h3 a4 h4 a5 h5 a6 h6 hc0 hc1 x0 x1 x2 xo = k1_pay2 x0 xo x1 := by
  unfold out1_B_3
  rw [View.read_writes_eq_canon _ _ _ (cover1_B_3 c i a3 h3 a4 h4 a5 h5 a6 h6 hc0 hc1 x0 x1 x2 xo)]
  unfold kernelRun1_B
  dsimp only
  sl_unfold_words
  rw [View.canon_unit_zero hz]
  simp only [View.readAt_eq_ld, h3.read_unread, h4.read_unread, h6.read_unread, View.ld_unit_zero (S := S1024x512) hz,
    View.ld_unit_zero (S := S512x2048) hz, View.ld_unit_zero (S := S1024x2048) hz]

/-- The first step (k = 0): the zero block is stored, read back, and `0 + x·w` stored over it. -/
theorem out_A (c : Dev nD) (i : grid1.Coords) (a3 : Memref sig .tc .vmem S1024x512 .f32) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (hc0 : cond1_0 i) (hc1 : ¬cond1_1 i)
    (x0 : Vec F S1024x512 .f32) (x1 : Vec F S512x2048 .bf16) (x2 : Vec F S1x2048 .f32) :
    out1_A_3 c i a3 h3 a4 h4 a5 h5 a6 h6 hc0 hc1 x0 x1 x2 = k1_pay2 x0 (k1_pay1 (F := F)) x1 := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x512) hz,
    View.ld_unit_zero (S := S512x2048) hz]

/-- The last step (k = 7): `xo + x·w` is stored, read back, and the bias row added to every row of it. -/
theorem out_C (c : Dev nD) (i : grid1.Coords) (a3 : Memref sig .tc .vmem S1024x512 .f32) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (hc0 : ¬cond1_0 i) (hc1 : cond1_1 i)
    (x0 : Vec F S1024x512 .f32) (x1 : Vec F S512x2048 .bf16) (x2 : Vec F S1x2048 .f32) (xo : Vec F S1024x2048 .f32) :
    out1_C_3 c i a3 h3 a4 h4 a5 h5 a6 h6 hc0 hc1 x0 x1 x2 xo = k1_pay3 (k1_pay2 x0 xo x1) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread, View.ld_unit_zero (S := S1024x512) hz,
    View.ld_unit_zero (S := S512x2048) hz, View.ld_unit_zero (S := S1024x2048) hz, View.ld_unit_zero (S := S1x2048) hz]

end Pieces

/-! ## The payloads read at an index, over the extended reals -/

section Payloads

/-- The contraction of the block product: rows of the left block against columns of the right one. -/
theorem lhs_dot_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_dot_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_dot_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_dot_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The block product into the zero accumulator, at entry `(p, q)`: `Σ_k x[p, k] · w[k, q]` over the 512 contracted entries. -/
theorem dot_at (x : FVec Ideal S1024x512 .bf16) (w : FVec Ideal S512x2048 .bf16) (p : Fin 1024) (q : Fin 2048) :
    matmul dot_S1024x512_S512x2048_S1024x2048_1_0_0_1_n_n none x w (constant (F := Ideal) S1024x2048 .f32 0x00000000#32) (ix2 p q)
      = ∑ k : Fin 512, x (ix2 p k) * w (ix2 k q) := by
  refine (Ideal.matmul_constant_zero_apply dot_S1024x512_S512x2048_S1024x2048_1_0_0_1_n_n none x w (ix2 p q)).trans ?_
  rw [← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-- The reset block is zero everywhere. -/
theorem pay1_at (p : Fin 1024) (q : Fin 2048) : (k1_pay1 (F := Ideal)) (ix2 p q) = 0 := by
  unfold k1_pay1
  exact Ideal.ofBits_zero_f32

/-- The accumulating store at entry `(p, q)`: what the block held there plus the block product's entry. -/
theorem pay2_at (x : Vec Ideal S1024x512 .f32) (acc : Vec Ideal S1024x2048 .f32) (w : Vec Ideal S512x2048 .bf16) (p : Fin 1024) (q : Fin 2048) :
    k1_pay2 (F := Ideal) x acc w (ix2 p q) = acc (ix2 p q) + ∑ k : Fin 512, x (ix2 p k) * w (ix2 k q) := by
  unfold k1_pay2
  refine (addf_apply _ _ (ix2 p q)).trans ?_
  refine congrArg₂ (· + ·) (congrFun (shapeCast_self acc _) (ix2 p q)) ?_
  refine (congrArg (fun w' => matmul dot_S1024x512_S512x2048_S1024x2048_1_0_0_1_n_n none (truncf .bf16 x bitsLt_bf16_f32) w' (constant (F := Ideal) S1024x2048 .f32 0x00000000#32) (ix2 p q)) (shapeCast_self w _)).trans ?_
  exact dot_at (truncf .bf16 x bitsLt_bf16_f32) w p q

/-- The closing store at entry `(p, q)`: the block's entry plus the bias row's entry of that column. -/
theorem pay3_at (v : Vec Ideal S1024x2048 .f32) (b : Vec Ideal S1x2048 .f32) (p : Fin 1024) (q : Fin 2048) :
    k1_pay3 (F := Ideal) v b (ix2 p q) = v (ix2 p q) + b (ix2 (0 : Fin 1) q) := by
  unfold k1_pay3
  refine (addf_apply _ _ (ix2 p q)).trans ?_
  refine congrArg₂ (· + ·) (congrFun (shapeCast_self v _) (ix2 p q)) ?_
  refine (broadcastTo_1b_ab_apply _ _ p q).trans ?_
  exact congrFun (shapeCast_self b _) (ix2 (0 : Fin 1) q)

end Payloads

/-! ## The arrays at natural coordinates, and the running sum -/

section Sums

/-- Entry `(r, j)` of the input matrix, zero outside it. -/
def xN (x : S8192x4096.Idx → EReal) (r j : ℕ) : EReal :=
  if h : r < 8192 ∧ j < 4096 then x (ix2 (⟨r, h.1⟩ : Fin 8192) (⟨j, h.2⟩ : Fin 4096)) else 0
/-- Entry `(j, o)` of the weight matrix, zero outside it. -/
def wN (W : S4096x4096.Idx → EReal) (j o : ℕ) : EReal :=
  if h : j < 4096 ∧ o < 4096 then W (ix2 (⟨j, h.1⟩ : Fin 4096) (⟨o, h.2⟩ : Fin 4096)) else 0
/-- Entry `o` of the bias row, zero outside it. -/
def bN (b : S1x4096.Idx → EReal) (o : ℕ) : EReal :=
  if h : o < 4096 then b (ix2 (0 : Fin 1) (⟨o, h⟩ : Fin 4096)) else 0

/-- The running sum `Σ_{j < m} x[r, j] · W[j, o]`. -/
def acc (x : S8192x4096.Idx → EReal) (W : S4096x4096.Idx → EReal) (r o m : ℕ) : EReal :=
  ∑ j ∈ Finset.range m, xN x r j * wN W j o
/-- One block of 512 contracted entries, from `m` on: `Σ_{k < 512} x[r, m + k] · W[m + k, o]`. -/
def blkSum (x : S8192x4096.Idx → EReal) (W : S4096x4096.Idx → EReal) (r o m : ℕ) : EReal :=
  ∑ k : Fin 512, xN x r (m + k.val) * wN W (m + k.val) o

theorem acc_zero (x : S8192x4096.Idx → EReal) (W : S4096x4096.Idx → EReal) (r o : ℕ) : acc x W r o 0 = 0 :=
  Finset.sum_range_zero _

/-- The running sum grows by one block: only that the extended reals are a commutative monoid under addition is used. -/
theorem acc_add (x : S8192x4096.Idx → EReal) (W : S4096x4096.Idx → EReal) (r o m : ℕ) :
    acc x W r o (m + 512) = acc x W r o m + blkSum x W r o m := by
  unfold acc blkSum
  rw [Finset.sum_range_add]
  exact congrArg (_ + ·) (Finset.sum_range fun k => xN x r (m + k) * wN W (m + k) o)

/-- After all eight blocks the running sum is the full contraction. -/
theorem acc_full (x : S8192x4096.Idx → EReal) (W : S4096x4096.Idx → EReal) (r : Fin 8192) (o : Fin 4096) :
    acc x W r.val o.val 4096 = ∑ j : Fin 4096, x (ix2 r j) * W (ix2 j o) := by
  unfold acc
  rw [Finset.sum_range]
  refine Finset.sum_congr rfl fun j _ => ?_
  unfold xN wN
  rw [dif_pos ⟨r.isLt, j.isLt⟩, dif_pos ⟨j.isLt, o.isLt⟩]

/-- The layer at an index, through the natural-coordinate readers. -/
theorem gemm_at (x : S8192x4096.Idx → EReal) (W : S4096x4096.Idx → EReal) (b : S1x4096.Idx → EReal) (i : S8192x4096.Idx) :
    Cert.QuantLinear.gemm x W b i = acc x W (i 0).val (i 1).val 4096 + bN b (i 1).val := by
  unfold Cert.QuantLinear.gemm
  rw [acc_full x W ⟨(i 0).val, idx2_lt0 i⟩ ⟨(i 1).val, idx2_lt1 i⟩]
  unfold bN
  rw [dif_pos (idx2_lt1 i)]

end Sums

/-! ## The windows' blocks as restrictions of the arrays -/

section Blocks

variable (V : (c : Dev nD) → (b : Ref sig .tc) → Buf (Elt Ideal) ((c : Thread nD τ).loc b))

/-- The three operand arrays as the region finds them, and their blocks at a point, each at its literal type. -/
abbrev xarr (c : Dev nD) : Vec Ideal S8192x4096 .f32 := V c main_arg0
abbrev warr (c : Dev nD) : Vec Ideal S4096x4096 .bf16 := V c main_v17
abbrev barr (c : Dev nD) : Vec Ideal S1x4096 .f32 := V c main_v16
abbrev xblk (c : Dev nD) (t : Fin cfg1.N) : Vec Ideal S1024x512 .f32 := iblk1 V c 0 t
abbrev wblk (c : Dev nD) (t : Fin cfg1.N) : Vec Ideal S512x2048 .bf16 := iblk1 V c 1 t
abbrev bblk (c : Dev nD) (t : Fin cfg1.N) : Vec Ideal S1x2048 .f32 := iblk1 V c 2 t

/-- The printed index maps over the grid `(mi, ni, k)`, point `t = 16·mi + 8·ni + k`: the input block is `(mi, k)`, the
    weight block `(k, ni)`, the bias block `(0, ni)`, the output block `(mi, ni)`. Decided over the 128 points. -/
theorem idx_facts : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = t.val / 8 % 2
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

theorem xblk_at (c : Dev nD) (t : Fin cfg1.N) (p : Fin 1024) (k : Fin 512) :
    xblk V c t (ix2 p k) = xN (xarr V c) (1024 * (t.val / 16) + p.val) (512 * (t.val % 8) + k.val) := by
  have hN : t.val < 128 := lt_of_lt_of_eq t.isLt (show cfg1.N = 128 from N_1)
  obtain ⟨e0, e1, -⟩ := idx_facts t
  unfold xN
  rw [dif_pos ⟨by omega, by omega⟩]
  show V c main_arg0 (((cfg1.win 0).blk t).view.emb (ix2 p k)) = V c main_arg0 _
  refine congrArg (V c main_arg0) (funext fun a => Fin.ext ?_)
  match a with
  | ⟨0, _⟩ => show win1_0.index t (0 : Fin 2) * 1024 + 1 * p.val = 1024 * (t.val / 16) + p.val; rw [e0]; omega
  | ⟨1, _⟩ => show win1_0.index t (1 : Fin 2) * 512 + 1 * k.val = 512 * (t.val % 8) + k.val; rw [e1]; omega

theorem wblk_at (c : Dev nD) (t : Fin cfg1.N) (k : Fin 512) (q : Fin 2048) :
    wblk V c t (ix2 k q) = wN (warr V c) (512 * (t.val % 8) + k.val) (2048 * (t.val / 8 % 2) + q.val) := by
  have hN : t.val < 128 := lt_of_lt_of_eq t.isLt (show cfg1.N = 128 from N_1)
  obtain ⟨-, -, e2, e3, -⟩ := idx_facts t
  unfold wN
  rw [dif_pos ⟨by omega, by omega⟩]
  show V c main_v17 (((cfg1.win 1).blk t).view.emb (ix2 k q)) = V c main_v17 _
  refine congrArg (V c main_v17) (funext fun a => Fin.ext ?_)
  match a with
  | ⟨0, _⟩ => show win1_1.index t (0 : Fin 2) * 512 + 1 * k.val = 512 * (t.val % 8) + k.val; rw [e2]; omega
  | ⟨1, _⟩ => show win1_1.index t (1 : Fin 2) * 2048 + 1 * q.val = 2048 * (t.val / 8 % 2) + q.val; rw [e3]; omega

theorem bblk_at (c : Dev nD) (t : Fin cfg1.N) (q : Fin 2048) :
    bblk V c t (ix2 (0 : Fin 1) q) = bN (barr V c) (2048 * (t.val / 8 % 2) + q.val) := by
  have hN : t.val < 128 := lt_of_lt_of_eq t.isLt (show cfg1.N = 128 from N_1)
  obtain ⟨-, -, -, -, e4, e5, -⟩ := idx_facts t
  unfold bN
  rw [dif_pos (by omega)]
  show V c main_v16 (((cfg1.win 2).blk t).view.emb (ix2 (0 : Fin 1) q)) = V c main_v16 _
  refine congrArg (V c main_v16) (funext fun a => Fin.ext ?_)
  match a with
  | ⟨0, _⟩ => show win1_2.index t (0 : Fin 2) * 1 + 1 * 0 = 0; rw [e4]
  | ⟨1, _⟩ => show win1_2.index t (1 : Fin 2) * 2048 + 1 * q.val = 2048 * (t.val / 8 % 2) + q.val; rw [e5]; omega

/-- The block product at a point is one block of the contraction. -/
theorem blk_sum_eq (c : Dev nD) (t : Fin cfg1.N) (p : Fin 1024) (q : Fin 2048) :
    ∑ k : Fin 512, xblk V c t (ix2 p k) * wblk V c t (ix2 k q)
      = blkSum (xarr V c) (warr V c) (1024 * (t.val / 16) + p.val) (2048 * (t.val / 8 % 2) + q.val) (512 * (t.val % 8)) := by
  unfold blkSum
  exact Finset.sum_congr rfl fun k _ => by rw [xblk_at, wblk_at]

end Blocks

/-! ## One grid point's step, and the invariant of the carried block -/

section Steps

variable (V : (c : Dev nD) → (b : Ref sig .tc) → Buf (Elt Ideal) ((c : Thread nD τ).loc b))

/-- At a first step the block ends at the block product alone. -/
theorem step_A (c : Dev nD) (t : Fin cfg1.N) (h0 : t.val % 8 = 0) (h1 : ¬t.val % 8 = 7) (p : Fin 1024) (q : Fin 2048) :
    outsAt1 V c t.val t.isLt (ix2 p q) = ∑ k : Fin 512, xblk V c t (ix2 p k) * wblk V c t (ix2 k q) := by
  rw [outsAt1_A V c t h0 h1]
  refine (congrFun (out_A (F := Ideal) c (grid1.coords t) (ms1_0 t) (hs1_0 t) (ms1_1 t) (hs1_1 t) (ms1_2 t) (hs1_2 t) (ms1_3 t) (hs1_3 t)
    ((hcond1_0 t).mpr h0) (fun h => h1 ((hcond1_1 t).mp h)) (xblk V c t) (wblk V c t) (bblk V c t)) (ix2 p q)).trans ?_
  refine (pay2_at (xblk V c t) (k1_pay1 (F := Ideal)) (wblk V c t) p q).trans ?_
  rw [pay1_at, zero_add]

/-- At a middle step the block gains the block product. -/
theorem step_B (c : Dev nD) (t : Fin cfg1.N) (h0 : ¬t.val % 8 = 0) (h1 : ¬t.val % 8 = 7) (p : Fin 1024) (q : Fin 2048) :
    outsAt1 V c t.val t.isLt (ix2 p q)
      = outsAt1 V c (t.val - 1) (Nat.lt_of_le_of_lt (Nat.sub_le _ _) t.isLt) (ix2 p q)
        + ∑ k : Fin 512, xblk V c t (ix2 p k) * wblk V c t (ix2 k q) := by
  rw [outsAt1_B V c t h0 h1]
  refine (congrFun (out_B (F := Ideal) c (grid1.coords t) (ms1_0 t) (hs1_0 t) (ms1_1 t) (hs1_1 t) (ms1_2 t) (hs1_2 t) (ms1_3 t) (hs1_3 t)
    (fun h => h0 ((hcond1_0 t).mp h)) (fun h => h1 ((hcond1_1 t).mp h)) (xblk V c t) (wblk V c t) (bblk V c t)
    (outsAt1 V c (t.val - 1) (Nat.lt_of_le_of_lt (Nat.sub_le _ _) t.isLt))) (ix2 p q)).trans ?_
  exact pay2_at (xblk V c t) (outsAt1 V c (t.val - 1) (Nat.lt_of_le_of_lt (Nat.sub_le _ _) t.isLt)) (wblk V c t) p q

/-- At a last step the block gains the block product and then the bias row. -/
theorem step_C (c : Dev nD) (t : Fin cfg1.N) (h0 : ¬t.val % 8 = 0) (h1 : t.val % 8 = 7) (p : Fin 1024) (q : Fin 2048) :
    outsAt1 V c t.val t.isLt (ix2 p q)
      = outsAt1 V c (t.val - 1) (Nat.lt_of_le_of_lt (Nat.sub_le _ _) t.isLt) (ix2 p q)
        + ∑ k : Fin 512, xblk V c t (ix2 p k) * wblk V c t (ix2 k q)
        + bblk V c t (ix2 (0 : Fin 1) q) := by
  rw [outsAt1_C V c t h0 h1]
  refine (congrFun (out_C (F := Ideal) c (grid1.coords t) (ms1_0 t) (hs1_0 t) (ms1_1 t) (hs1_1 t) (ms1_2 t) (hs1_2 t) (ms1_3 t) (hs1_3 t)
    (fun h => h0 ((hcond1_0 t).mp h)) ((hcond1_1 t).mpr h1) (xblk V c t) (wblk V c t) (bblk V c t)
    (outsAt1 V c (t.val - 1) (Nat.lt_of_le_of_lt (Nat.sub_le _ _) t.isLt))) (ix2 p q)).trans ?_
  refine (pay3_at (k1_pay2 (F := Ideal) (xblk V c t) (outsAt1 V c (t.val - 1) (Nat.lt_of_le_of_lt (Nat.sub_le _ _) t.isLt)) (wblk V c t)) (bblk V c t) p q).trans ?_
  exact congrArg (· + bblk V c t (ix2 (0 : Fin 1) q))
    (pay2_at (xblk V c t) (outsAt1 V c (t.val - 1) (Nat.lt_of_le_of_lt (Nat.sub_le _ _) t.isLt)) (wblk V c t) p q)

/-- THE INVARIANT. After a point `n = 16·mi + 8·ni + k` with `k < 7`, entry `(p, q)` of the carried block is the running sum
    `Σ_{j < 512·(k+1)} x[1024·mi + p, j] · W[j, 2048·ni + q]`. By induction on the point: a first step starts the sum,
    a middle step extends what the point before left (same `mi`, `ni`, one block further). -/
theorem outsAt_eq (c : Dev nD) : ∀ (n : ℕ) (h : n < cfg1.N), ¬n % 8 = 7 → ∀ (p : Fin 1024) (q : Fin 2048),
    outsAt1 V c n h (ix2 p q)
      = acc (xarr V c) (warr V c) (1024 * (n / 16) + p.val) (2048 * (n / 8 % 2) + q.val) (512 * (n % 8 + 1)) := by
  intro n
  induction n with
  | zero =>
    intro h h7 p q
    refine (step_A V c ⟨0, h⟩ rfl h7 p q).trans ?_
    rw [blk_sum_eq]
    show blkSum _ _ _ _ (512 * (0 % 8)) = acc _ _ _ _ (512 * (0 % 8 + 1))
    rw [show 512 * (0 % 8 + 1) = 0 + 512 from rfl, acc_add, acc_zero, zero_add]
  | succ n ih =>
    intro h h7 p q
    by_cases h0 : (n + 1) % 8 = 0
    · refine (step_A V c ⟨n + 1, h⟩ h0 h7 p q).trans ?_
      rw [blk_sum_eq]
      show blkSum _ _ _ _ (512 * ((n + 1) % 8)) = acc _ _ _ _ (512 * ((n + 1) % 8 + 1))
      rw [h0, show 512 * (0 + 1) = 0 + 512 from rfl, acc_add, acc_zero, zero_add]
    · refine (step_B V c ⟨n + 1, h⟩ h0 h7 p q).trans ?_
      rw [blk_sum_eq]
      show outsAt1 V c n _ (ix2 p q) + blkSum _ _ (1024 * ((n + 1) / 16) + p.val) (2048 * ((n + 1) / 8 % 2) + q.val) (512 * ((n + 1) % 8))
        = acc _ _ (1024 * ((n + 1) / 16) + p.val) (2048 * ((n + 1) / 8 % 2) + q.val) (512 * ((n + 1) % 8 + 1))
      rw [ih (Nat.lt_of_succ_lt h) (by omega) p q, show n / 16 = (n + 1) / 16 from by omega, show n / 8 % 2 = (n + 1) / 8 % 2 from by omega,
        show 512 * (n % 8 + 1) = 512 * ((n + 1) % 8) from by omega,
        show 512 * ((n + 1) % 8 + 1) = 512 * ((n + 1) % 8) + 512 from by omega, acc_add]

/-- After a last step the block's entry `(p, q)` is the full contraction plus the bias. -/
theorem outsAt_last (c : Dev nD) (t : Fin cfg1.N) (h7 : t.val % 8 = 7) (p : Fin 1024) (q : Fin 2048) :
    outsAt1 V c t.val t.isLt (ix2 p q)
      = acc (xarr V c) (warr V c) (1024 * (t.val / 16) + p.val) (2048 * (t.val / 8 % 2) + q.val) 4096
        + bN (barr V c) (2048 * (t.val / 8 % 2) + q.val) := by
  refine (step_C V c t (by omega) h7 p q).trans ?_
  rw [blk_sum_eq, bblk_at, outsAt_eq V c (t.val - 1) (Nat.lt_of_le_of_lt (Nat.sub_le _ _) t.isLt) (by omega) p q,
    show (t.val - 1) / 16 = t.val / 16 from by omega, show (t.val - 1) / 8 % 2 = t.val / 8 % 2 from by omega,
    show 512 * ((t.val - 1) % 8 + 1) = 512 * (t.val % 8) from by omega, ← acc_add,
    show 512 * (t.val % 8) + 512 = 4096 from by omega]

end Steps

/-! ## From the blocks to the array -/

section Final

variable (V : (c : Dev nD) → (b : Ref sig .tc) → Buf (Elt Ideal) ((c : Thread nD τ).loc b))

/-- The layer's value on the arrays the region finds. -/
abbrev result (c : Dev nD) : S8192x4096.Idx → EReal :=
  Cert.QuantLinear.gemm (xarr V c) (warr V c) (barr V c)

/-- What a last step writes back is its block `(mi, ni)` of the layer's value. -/
theorem flushed_eq (c : Dev nD) (t : Fin cfg1.N) (hf : (cfg1.win 3).flush t = true) :
    (dat1 V c).flushed 3 t = ((cfg1.win 3).blk t).view.read (Elt Ideal) (result V c) := by
  have h7 : t.val % 8 = 7 := (flush1_3 t).mp hf
  have hN : t.val < 128 := lt_of_lt_of_eq t.isLt (show cfg1.N = 128 from N_1)
  obtain ⟨-, -, -, -, -, -, e6, e7⟩ := idx_facts t
  show (cfg1.win 3).cut (grid1.coords t) ((dat1 V c).after 3 t) = _
  rw [after1_3]
  refine funext fun (y : S1024x2048.Idx) => ?_
  obtain ⟨p, q, rfl⟩ : ∃ (p : Fin 1024) (q : Fin 2048), y = ix2 p q := ⟨y 0, y 1, eq_ix2 y⟩
  show outsAt1 V c t.val t.isLt (ix2 p q) = result V c (((cfg1.win 3).blk t).view.emb (ix2 p q))
  have e0 : ((((cfg1.win 3).blk t).view.emb (ix2 p q) : S8192x4096.Idx) 0).val = 1024 * (t.val / 16) + p.val := by
    show win1_3.index t (0 : Fin 2) * 1024 + 1 * p.val = _; rw [e6]; omega
  have e1 : ((((cfg1.win 3).blk t).view.emb (ix2 p q) : S8192x4096.Idx) 1).val = 2048 * (t.val / 8 % 2) + q.val := by
    show win1_3.index t (1 : Fin 2) * 2048 + 1 * q.val = _; rw [e7]; omega
  rw [outsAt_last V c t h7 p q]
  refine Eq.symm ((gemm_at (xarr V c) (warr V c) (barr V c) (((cfg1.win 3).blk t).view.emb (ix2 p q))).trans ?_)
  rw [e0, e1]

/-- An index of the output array is in point `t`'s block iff each coordinate is in the block's range on its axis. -/
theorem mem_blk (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v18).slice (win1_3.rect t)).set ↔ _
  rw [View.set_slice_whole, Rect.mem_set_unit]
  exact Iff.rfl

/-- Every index `(r, o)` of the output is in the block written back after the last step of `(r / 1024, o / 2048)`. -/
theorem cover (i : S8192x4096.Idx) :
    ∃ t : Fin cfg1.N, (cfg1.win 3).flush t = true ∧ i ∈ ((cfg1.win 3).blk t).view.set := by
  have hi0 : (i 0).val < 8192 := idx2_lt0 i
  have hi1 : (i 1).val < 4096 := idx2_lt1 i
  have hlt : 16 * ((i 0).val / 1024) + 8 * ((i 1).val / 2048) + 7 < cfg1.N :=
    lt_of_lt_of_eq (by omega) (show 128 = cfg1.N from N_1.symm)
  obtain ⟨-, -, -, -, -, -, e6, e7⟩ := idx_facts ⟨16 * ((i 0).val / 1024) + 8 * ((i 1).val / 2048) + 7, hlt⟩
  refine ⟨⟨16 * ((i 0).val / 1024) + 8 * ((i 1).val / 2048) + 7, hlt⟩, (flush1_3 _).mpr (by dsimp only; omega), ?_⟩
  rw [mem_blk]
  intro a
  match a with
  | ⟨0, _⟩ =>
    show win1_3.index ⟨16 * ((i 0).val / 1024) + 8 * ((i 1).val / 2048) + 7, hlt⟩ (0 : Fin 2) * 1024 ≤ (i 0).val
      ∧ (i 0).val < win1_3.index ⟨16 * ((i 0).val / 1024) + 8 * ((i 1).val / 2048) + 7, hlt⟩ (0 : Fin 2) * 1024 + 1024
    rw [e6]; dsimp only; omega
  | ⟨1, _⟩ =>
    show win1_3.index ⟨16 * ((i 0).val / 1024) + 8 * ((i 1).val / 2048) + 7, hlt⟩ (1 : Fin 2) * 2048 ≤ (i 1).val
      ∧ (i 1).val < win1_3.index ⟨16 * ((i 0).val / 1024) + 8 * ((i 1).val / 2048) + 7, hlt⟩ (1 : Fin 2) * 2048 + 2048
    rw [e7]; dsimp only; omega

end Final

/-- REGION 1's VALUE. Whatever the arrays hold when the region is entered, after its 128 points the output array is the
    layer `out[r, o] = Σ_{j < 4096} x[r, j] · W[j, o] + b[0, o]` of the three operand arrays. -/
theorem arrAt_eq (V : (c : Dev nD) → (b : Ref sig .tc) → Buf (Elt Ideal) ((c : Thread nD τ).loc b)) (c : Dev nD) :
    ((Gen.dat1 (F := Ideal) V c).arrAt 3 cfg1.N)
      = Cert.QuantLinear.gemm (V c main_arg0) (V c main_v17) (V c main_v16) :=
  (dat1 V c).arrAt_eq_of_cover 3 (result V c) (flushed_eq V c) cover

end Cert.KernelIdeal.GemmValue

end
-- ==== Proof.KernelValue.lean ====
/-
  The idealized kernel's result as one function of its arguments.

  The result array after the second region is what that region's write-backs left: `x · W + b` of the arrays the
  region found (the matrix-product region's value). The weight array it found is what the first region's write-backs
  left — the indicator-sum dequantization of the packed weights, the scales, the float zero points and the group
  numbers as the first region found them (the dequantization region's value); the activations and the bias row are
  as the first region found them. The first region found the arguments as launched, the float zero points at the
  host's unpacking of the packed zero points and the bias laid out as one row (the host side). Composed: the
  result is `gemm x (deqW qweight scales (zerosF qzeros) g_idx) (biasRow bias)` of the launch contents.
-/
import proofs.«426221_j26293789786976_3_alg».proof.Proof.HostValue
import proofs.«426221_j26293789786976_3_alg».proof.Proof.DequantValue
import proofs.«426221_j26293789786976_3_alg».proof.Proof.GemmValue

set_option maxRecDepth 16384

noncomputable section

namespace Cert.KernelIdeal.KernelValue

open Idealize.ShloMosaic Idealize.ShloMosaic.TcCoe Idealize.SL.Sem Cert.KernelIdeal Cert.KernelIdeal.Gen Cert.QuantLinear
open Cert.KernelIdeal.HostValue

variable (m : (ℓ : Loc nD τ sig) → Buf (Elt Ideal) ℓ) (ρ : Dev nD → PrngReg)

/-- The result array's final contents: the layer applied to the launch contents of the six arguments. -/
theorem result_value (c : Dev nD) :
    W3 m ρ c (Proc.devRef .tc main_v18)
      = gemm (m ((c : Thread nD τ).loc main_arg0))
          (deqW (m ((c : Thread nD τ).loc main_arg1)) (m ((c : Thread nD τ).loc main_arg3))
            (zerosF (m ((c : Thread nD τ).loc main_arg2))) (m ((c : Thread nD τ).loc main_arg4)))
          (biasRow (m ((c : Thread nD τ).loc main_arg5))) := by
  rw [W3_result, Cert.KernelIdeal.GemmValue.arrAt_eq (V2 m ρ) c, V2_arg0, V2_weights, V2_bias,
    Cert.KernelIdeal.DequantValue.arrAt_eq (V1 m ρ) c, V1_arg0, V1_arg1, V1_arg3, V1_zeros, V1_arg4, V1_bias]

end Cert.KernelIdeal.KernelValue

end
-- ==== Proof.Bridge.lean ====
/-
  The two spellings of the dequantized weight agree when every group number lies in `[0, 32)`.

  For a group word `g` with `0 ≤ g < 32`: nothing is wrapped and nothing is clamped, so the table row `rowOf g` is
  `g` itself; the indicator `[g = G]` is 1 exactly at `G = rowOf g`, so an indicator sum against a table column is the
  column's entry at that row (every other term is `0 · _ = 0`, which holds for every extended real). A 4-bit field lies
  in `[0, 15]` and a zero point in `[1, 16]`, so their 32-bit difference does not wrap and converting the difference is
  subtracting the conversions. Commutativity of the product joins the two sides; nothing needs the tables finite.
-/
import proofs.«426221_j26293789786976_3_alg».proof.Proof.Spec

noncomputable section

open scoped BigOperators

namespace Cert.QuantLinear

open Idealize.ShloMosaic Idealize.ShloMosaic.ValueIdx

/-- A 4-bit field is at most 15. -/
theorem nib_toNat_le (w : BitVec 32) (p : Nat) : (nib w p).toNat ≤ 15 := by
  unfold nib; rw [BitVec.toNat_and]; exact Nat.and_le_right

/-- Read signed, a 4-bit field is its unsigned value. -/
theorem nib_toInt (w : BitVec 32) (p : Nat) : (nib w p).toInt = ((nib w p).toNat : Int) :=
  BitVec.toInt_eq_toNat_of_lt (by have := nib_toNat_le w p; omega)

/-- The difference of a 4-bit field and a zero point (a 4-bit field plus one) does not wrap. -/
theorem toInt_sub_field (a z : BitVec 32) (ha : a.toNat ≤ 15) (hz : z.toNat ≤ 15) :
    (a - (z + 1#32)).toInt = a.toInt - (z + 1#32).toInt := by
  have h1 : (z + 1#32).toNat = z.toNat + 1 := by
    rw [BitVec.toNat_add]; simp; omega
  have h2 : (z + 1#32).toInt = (z.toNat : Int) + 1 := by
    rw [BitVec.toInt_eq_toNat_of_lt (by omega), h1]; push_cast; rfl
  have h3 : a.toInt = (a.toNat : Int) := BitVec.toInt_eq_toNat_of_lt (by omega)
  rw [BitVec.toInt_sub, h2, h3]
  simp only [Int.bmod]
  omega

/-- An in-range group word is its own table row. -/
theorem rowOf_val (g : BitVec 32) (h0 : 0 ≤ g.toInt) (h1 : g.toInt < 32) : (rowOf g).val = g.toInt.toNat := by
  have hs : g.slt 0#32 = false := by simp [BitVec.slt]; omega
  unfold rowOf
  simp only [hs, Bool.false_eq_true, if_false]
  omega

/-- The indicator of an in-range group word is 1 exactly at its table row. -/
theorem oh_eq (g : BitVec 32) (h0 : 0 ≤ g.toInt) (h1 : g.toInt < 32) (G : Fin 32) :
    oh g G.val = if G = rowOf g then 1 else 0 := by
  unfold oh
  have hiff : g = BitVec.ofNat 32 G.val ↔ G = rowOf g := by
    rw [Fin.ext_iff, rowOf_val g h0 h1]
    constructor
    · intro h; subst h; rw [BitVec.toInt_ofNat']; simp only [Int.bmod]; omega
    · intro h
      apply BitVec.eq_of_toInt_eq
      rw [BitVec.toInt_ofNat']
      simp only [Int.bmod]; omega
  by_cases h : G = rowOf g
  · rw [if_pos (hiff.mpr h), if_pos h]
  · rw [if_neg (fun e => h (hiff.mp e)), if_neg h]

/-- An indicator sum against a table column is the column's entry at the word's row. -/
theorem sum_oh (g : BitVec 32) (h0 : 0 ≤ g.toInt) (h1 : g.toInt < 32) (f : Fin 32 → EReal) :
    ∑ G : Fin 32, oh g G.val * f G = f (rowOf g) := by
  rw [Finset.sum_eq_single (rowOf g)]
  · rw [oh_eq g h0 h1, if_pos rfl, one_mul]
  · intro G _ hne; rw [oh_eq g h0 h1, if_neg hne, zero_mul]
  · intro h; exact absurd (Finset.mem_univ _) h

/-- THE BRIDGE: with every group number in `[0, 32)`, the indicator-sum spelling over the converted zero points is the
    direct-read spelling. -/
theorem deqW_eq_refW (qw : IVec SQW 32) (qz : IVec SQZ 32) (sc : STab.Idx → EReal) (gi : IVec SG 32)
    (hg : ∀ r : Fin 4096, 0 ≤ (gi (ix1 r)).toInt ∧ (gi (ix1 r)).toInt < 32) :
    deqW qw sc (zerosF qz) gi = refW qw qz sc gi := by
  funext i
  obtain ⟨h0, h1⟩ := hg (⟨(i 0).val, idx2_lt0 i⟩ : Fin 4096)
  unfold deqW refW
  rw [sum_oh _ h0 h1 (fun G => zerosF qz (ix2 G (⟨(i 1).val, idx2_lt1 i⟩ : Fin 4096))),
    sum_oh _ h0 h1 (fun G => sc (ix2 G (⟨(i 1).val, idx2_lt1 i⟩ : Fin 4096)))]
  rw [mul_comm]
  congr 1
  unfold zerosF
  rw [← EReal.coe_sub, ← Int.cast_sub]
  congr 2
  unfold zerosI wI
  exact (toInt_sub_field _ _ (nib_toNat_le _ _) (nib_toNat_le _ _)).symm

end Cert.QuantLinear

end
-- ==== Proof.PreDecode.lean ====
/-
  The precondition read back: it ends in `all (0 ≤ g) ∧ (g < 32)` over the group numbers, so every group number
  lies in `[0, 32)` (read signed).
-/
import proofs.«426221_j26293789786976_3_alg».proof.Pre_finite_inputs
import Idealize.ShloMosaic.Lib.ReduceAll
import Idealize.ShloMosaic.Lib.ValueIdx

noncomputable section

namespace Cert.QuantLinear.PreDecode

open Idealize.ShloMosaic Idealize.ShloMosaic.ValueIdx Cert.Pre_finite_inputs

variable [Cert.Pre_finite_inputs.Facts]

instance : Subsingleton S_.Idx := ⟨fun a b => funext fun d => d.elim0⟩

/-- Where the printed precondition is all ones, every entry of the group-number input is in `[0, 32)`: the
    precondition's last conjunct is an `and`-reduction over all entries of "0 ≤ g and g < 32". -/
theorem gidx_range {F : FTy → Type} [FloatOps F] (a0 : FVec F S8192x4096 .f32) (a1 : IVec S512x4096 32) (a2 : IVec S32x512 32)
    (a3 : FVec F S32x4096 .f32) (a4 : IVec S4096 32) (a5 : FVec F S4096 .f32)
    (h : Cert.Pre_finite_inputs.fn (F := F) a0 a1 a2 a3 a4 a5 = fun _ => 1#1) (r : Fin 4096) :
    0 ≤ (a4 (ix1 r)).toInt ∧ (a4 (ix1 r)).toInt < 32 := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix1 r)
  obtain ⟨h3, h4⟩ := IntOp.andi_eq_one.1 h2
  have h5 := IntOp.cmpi_sge.1 h3
  have h6 := IntOp.cmpi_slt.1 h4
  exact ⟨h5, h6⟩

end Cert.QuantLinear.PreDecode

end
-- ==== Proof.RefValue.lean ====
/-
  The reference program's result as the mathematics of the quantized linear layer.

  The reference's run states its result as one composed term of the six argument arrays. Read one operation at a
  time at an index, that term is `x · W + bias` with `W[r, o] = scale[g r, o] · (w[r, o] − zero[g r, o])`: the shift
  amounts `0 + 4p` and the mask `15` make every unpacked entry a 4-bit field of its packed word; the two reshapes put
  field `o % 8` of packed column `o / 8` at column `o` (zero points) and field `r % 8` of packed row `r / 8` at row `r`
  (weights); the two row gathers read the scale table and the unpacked zero points at the row the group word names
  (a negative word wrapped once by 32, then read signed and clamped into the table); the contraction is the plain sum
  over the 4096 input features; the bias is read at the column.
-/
import proofs.«426221_j26293789786976_3_alg».proof.Defs
import proofs.«426221_j26293789786976_3_alg».proof.Proof.Gen.ReferenceIdeal.Run
import proofs.«426221_j26293789786976_3_alg».proof.Proof.Gen.ReferenceIdeal.Read
import proofs.«426221_j26293789786976_3_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.QuantLinear

/-- The row gather read at `(r, o)`: the operand at the row the start index `idx[r, 0]` names, read signed and
    clamped into `[0, 31]`, and at column `o`. -/
theorem gather_row_apply {α : Type} (x : S32x4096.Idx → α) (idx : IVec S4096x1 32) (y : S4096x4096.Idx) :
    Host.gather gather_S32x4096_S4096x1_S4096x4096_1_0_n_n_0_1_14096 x idx y
      = x (ix2 (⟨min (idx (ix2 (⟨(y 0).val, idx2_lt0 y⟩ : Fin 4096) (0 : Fin 1))).toInt.toNat 31, by omega⟩ : Fin 32)
            (⟨(y 1).val, idx2_lt1 y⟩ : Fin 4096)) := by
  unfold Host.gather
  congr 1
  funext a
  refine Fin.ext ?_
  match a with
  | ⟨0, _⟩ =>
    show gather_S32x4096_S4096x1_S4096x4096_1_0_n_n_0_1_14096.start y idx 0
        + gather_S32x4096_S4096x1_S4096x4096_1_0_n_n_0_1_14096.batchCoord y 0
        + gather_S32x4096_S4096x1_S4096x4096_1_0_n_n_0_1_14096.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S32x4096.rank) ∈ gather_S32x4096_S4096x1_S4096x4096_1_0_n_n_0_1_14096.startIndexMap from List.mem_singleton.mpr rfl)]
    have hsi : gather_S32x4096_S4096x1_S4096x4096_1_0_n_n_0_1_14096.siIdx y
        ⟨List.idxOf (0 : Fin S32x4096.rank) gather_S32x4096_S4096x1_S4096x4096_1_0_n_n_0_1_14096.startIndexMap,
          List.idxOf_lt_length_iff.2 (List.mem_singleton.mpr rfl)⟩
        = ix2 (⟨(y 0).val, idx2_lt0 y⟩ : Fin 4096) (0 : Fin 1) := by
      funext b; refine Fin.ext ?_
      match b with
      | ⟨0, _⟩ => rfl
      | ⟨1, _⟩ => rfl
    rw [hsi]
    rfl
  | ⟨1, _⟩ =>
    show gather_S32x4096_S4096x1_S4096x4096_1_0_n_n_0_1_14096.start y idx 1
        + gather_S32x4096_S4096x1_S4096x4096_1_0_n_n_0_1_14096.batchCoord y 1
        + gather_S32x4096_S4096x1_S4096x4096_1_0_n_n_0_1_14096.offCoord y 1 = _
    rw [GatherDims.batchCoord_eq_zero _ _ _ List.not_mem_nil]
    unfold GatherDims.start GatherDims.offCoord
    rw [dif_neg (by decide), dif_pos (by decide)]
    simp only [Nat.zero_add, Nat.add_zero]
    rfl

/-! ## Words -/

/-- The shift amount of field `p` (below 8), `0 + 4·p` on 32-bit words, is the number `4p`. -/
theorem shift_amt (p : Nat) (hp : p < 8) :
    (IntOp.addi 0#32 (IntOp.muli 4#32 (BitVec.ofNat 32 p))).toNat = 4 * p := by
  interval_cases p <;> rfl

/-- A word shifted right arithmetically by that amount and masked to four bits is its field `p`. -/
theorem shr_nib (x : BitVec 32) (p : Nat) (hp : p < 8) :
    IntOp.andi (IntOp.shrsi .host x (IntOp.addi 0#32 (IntOp.muli 4#32 (BitVec.ofNat 32 p)))) 15#32 = nib x p := by
  unfold IntOp.shrsi
  rw [if_pos (by rw [shift_amt p hp]; omega)]
  unfold nib IntOp.andi BitVec.sshiftRight'
  rw [shift_amt p hp]

/-- The start index: a negative group word wrapped once by 32. -/
theorem select_wrap (g : BitVec 32) :
    Scalar.select (IntOp.cmpi .slt g 0#32) (IntOp.addi g 32#32) g = if g.slt 0#32 then g + 32#32 else g := by
  unfold Scalar.select IntOp.cmpi IntOp.addi
  cases g.slt 0#32 <;> rfl

/-! ## The zero points -/

/-- Before the reshape: entry `(G, c, p)` is field `p` of packed zero word `(G, c)`, plus one. -/
theorem v13_at (qz : IVec S32x512 32) (a : Fin 32) (b : Fin 512) (c : Fin 8) :
    val_main_v13 (F := Ideal) qz (ix3 a b c) = nib (qz (ix2 a b)) c.val + 1#32 := by
  rw [val_main_v13_apply, val_main_v11_apply, val_main_v9_apply, val_main_v7_apply, val_main_v5_apply,
    val_main_v8_apply, val_main_v6_apply, val_main_v4_apply, val_main_v3_apply, val_main_c_0_apply,
    val_main_v2_apply, val_main_v1_apply, val_main_c_apply, val_main_v0_apply, val_main_v10_apply,
    val_main_c_1_apply, val_main_v12_apply, val_main_c_2_apply]
  have e : idx_main_v5 (idx_main_v7 (ix3 a b c)) = ix2 a b :=
    funext fun d => Fin.ext (by match d with | ⟨0, _⟩ => rfl | ⟨1, _⟩ => rfl)
  rw [e]
  show IntOp.addi (IntOp.andi (IntOp.shrsi .host (qz (ix2 a b))
    (IntOp.addi 0#32 (IntOp.muli 4#32 (BitVec.ofNat 32 c.val)))) 15#32) 1#32 = _
  rw [shr_nib _ _ c.isLt]
  rfl

/-- The reshape `[32, 512, 8] → [32, 4096]` puts field `o % 8` of packed column `o / 8` at column `o`. -/
theorem v14_eq (qz : IVec S32x512 32) (i : S32x4096.Idx) :
    val_main_v14 (F := Ideal) qz i = zerosI qz i := by
  have h0 : (i 0).val < 32 := idx2_lt0 i
  have h1 : (i 1).val < 4096 := idx2_lt1 i
  have e : idx_main_v14 i = ix3 (⟨(i 0).val, h0⟩ : Fin 32) (⟨(i 1).val / 8, by omega⟩ : Fin 512)
      (⟨(i 1).val % 8, by omega⟩ : Fin 8) :=
    funext fun d => Fin.ext (by
      match d with
      | ⟨0, _⟩ => show ((i 0).val * 4096 + (i 1).val) / 4096 = (i 0).val; omega
      | ⟨1, _⟩ => show ((i 0).val * 4096 + (i 1).val) / 8 % 512 = (i 1).val / 8; omega
      | ⟨2, _⟩ => show ((i 0).val * 4096 + (i 1).val) % 8 = (i 1).val % 8; omega)
  rw [val_main_v14_apply, e, v13_at]
  rfl

/-! ## The weights -/

/-- Before the reshape: entry `(a, p, o)` is field `p` of packed weight word `(a, o)`. -/
theorem v21_at (qw : IVec S512x4096 32) (a : Fin 512) (p : Fin 8) (o : Fin 4096) :
    val_main_v21 (F := Ideal) qw (ix3 a p o) = nib (qw (ix2 a o)) p.val := by
  rw [val_main_v21_apply, val_main_v19_apply, val_main_v17_apply, val_main_v15_apply,
    val_main_v18_apply, val_main_v16_apply, val_main_v4_apply, val_main_v3_apply, val_main_c_0_apply,
    val_main_v2_apply, val_main_v1_apply, val_main_c_apply, val_main_v0_apply, val_main_v20_apply,
    val_main_c_3_apply]
  have e : idx_main_v15 (idx_main_v17 (ix3 a p o)) = ix2 a o :=
    funext fun d => Fin.ext (by match d with | ⟨0, _⟩ => rfl | ⟨1, _⟩ => rfl)
  rw [e]
  show IntOp.andi (IntOp.shrsi .host (qw (ix2 a o))
    (IntOp.addi 0#32 (IntOp.muli 4#32 (BitVec.ofNat 32 p.val)))) 15#32 = _
  exact shr_nib _ _ p.isLt

/-- The reshape `[512, 8, 4096] → [4096, 4096]` puts field `r % 8` of packed row `r / 8` at row `r`. -/
theorem v22_eq (qw : IVec S512x4096 32) (i : S4096x4096.Idx) :
    val_main_v22 (F := Ideal) qw i = wI qw i := by
  have h0 : (i 0).val < 4096 := idx2_lt0 i
  have h1 : (i 1).val < 4096 := idx2_lt1 i
  have e : idx_main_v22 i = ix3 (⟨(i 0).val / 8, by omega⟩ : Fin 512) (⟨(i 0).val % 8, by omega⟩ : Fin 8)
      (⟨(i 1).val, h1⟩ : Fin 4096) :=
    funext fun d => Fin.ext (by
      match d with
      | ⟨0, _⟩ => show ((i 0).val * 4096 + (i 1).val) / 32768 = (i 0).val / 8; omega
      | ⟨1, _⟩ => show ((i 0).val * 4096 + (i 1).val) / 4096 % 8 = (i 0).val % 8; omega
      | ⟨2, _⟩ => show ((i 0).val * 4096 + (i 1).val) % 4096 = (i 1).val; omega)
  rw [val_main_v22_apply, e, v21_at]
  rfl

/-! ## The group rows -/

theorem v27_at (gi : IVec S4096 32) (j : S4096.Idx) :
    val_main_v27 (F := Ideal) gi j = if (gi j).slt 0#32 then gi j + 32#32 else gi j := by
  rw [val_main_v27_apply, val_main_v24_apply, val_main_v23_apply, val_main_c_4_apply, val_main_v26_apply,
    val_main_v25_apply, val_main_c_5_apply]
  exact select_wrap _

theorem v34_at (gi : IVec S4096 32) (j : S4096.Idx) :
    val_main_v34 (F := Ideal) gi j = if (gi j).slt 0#32 then gi j + 32#32 else gi j := by
  rw [val_main_v34_apply, val_main_v31_apply, val_main_v30_apply, val_main_c_6_apply, val_main_v33_apply,
    val_main_v32_apply, val_main_c_7_apply]
  exact select_wrap _

/-- The gathered scales: row `r` reads the scale table at row `rowOf (g r)`. -/
theorem v29_at (sc : FVec Ideal S32x4096 .f32) (gi : IVec S4096 32) (i : S4096x4096.Idx) :
    val_main_v29 (F := Ideal) sc gi i
      = sc (ix2 (rowOf (gi (ix1 (⟨(i 0).val, idx2_lt0 i⟩ : Fin 4096)))) (⟨(i 1).val, idx2_lt1 i⟩ : Fin 4096)) := by
  have e : idx_main_v28 (ix2 (⟨(i 0).val, idx2_lt0 i⟩ : Fin 4096) (0 : Fin 1)) = ix1 (⟨(i 0).val, idx2_lt0 i⟩ : Fin 4096) :=
    funext fun d => Fin.ext (by match d with | ⟨0, _⟩ => rfl)
  have hr : (⟨min (val_main_v28 (F := Ideal) gi (ix2 (⟨(i 0).val, idx2_lt0 i⟩ : Fin 4096) (0 : Fin 1))).toInt.toNat 31,
        by omega⟩ : Fin 32) = rowOf (gi (ix1 (⟨(i 0).val, idx2_lt0 i⟩ : Fin 4096))) := Fin.ext (by
    show min (BitVec.toInt (val_main_v28 (F := Ideal) gi _)).toNat 31 = _
    rw [val_main_v28_apply, v27_at, e]
    rfl)
  unfold val_main_v29
  rw [gather_row_apply, hr]

/-- The gathered zero points: row `r` reads the unpacked zero points at row `rowOf (g r)`. -/
theorem v36_at (qz : IVec S32x512 32) (gi : IVec S4096 32) (i : S4096x4096.Idx) :
    val_main_v36 (F := Ideal) qz gi i
      = zerosI qz (ix2 (rowOf (gi (ix1 (⟨(i 0).val, idx2_lt0 i⟩ : Fin 4096)))) (⟨(i 1).val, idx2_lt1 i⟩ : Fin 4096)) := by
  have e : idx_main_v35 (ix2 (⟨(i 0).val, idx2_lt0 i⟩ : Fin 4096) (0 : Fin 1)) = ix1 (⟨(i 0).val, idx2_lt0 i⟩ : Fin 4096) :=
    funext fun d => Fin.ext (by match d with | ⟨0, _⟩ => rfl)
  have hr : (⟨min (val_main_v35 (F := Ideal) gi (ix2 (⟨(i 0).val, idx2_lt0 i⟩ : Fin 4096) (0 : Fin 1))).toInt.toNat 31,
        by omega⟩ : Fin 32) = rowOf (gi (ix1 (⟨(i 0).val, idx2_lt0 i⟩ : Fin 4096))) := Fin.ext (by
    show min (BitVec.toInt (val_main_v35 (F := Ideal) gi _)).toNat 31 = _
    rw [val_main_v35_apply, v34_at, e]
    rfl)
  unfold val_main_v36
  rw [gather_row_apply, hr, v14_eq]

/-! ## The dequantized weight and the layer -/

theorem v39_at (qw : IVec S512x4096 32) (qz : IVec S32x512 32) (sc : FVec Ideal S32x4096 .f32) (gi : IVec S4096 32)
    (i : S4096x4096.Idx) :
    val_main_v39 (F := Ideal) qw qz sc gi i = refW qw qz sc gi i := by
  rw [val_main_v39_apply, val_main_v38_apply, val_main_v37_apply, v29_at, v22_eq, v36_at]
  rfl

theorem v43_at (x : FVec Ideal S8192x4096 .f32) (qw : IVec S512x4096 32) (qz : IVec S32x512 32)
    (sc : FVec Ideal S32x4096 .f32) (gi : IVec S4096 32) (bias : FVec Ideal S4096 .f32) (i : S8192x4096.Idx) :
    val_main_v43 (F := Ideal) x qw qz sc gi bias i = gemm x (refW qw qz sc gi) (biasRow bias) i := by
  rw [val_main_v43_apply, val_main_v40_apply, val_main_v42_apply, val_main_v41_apply]
  have eb : idx_main_v41 (idx_main_v42 i) = ix1 (⟨(i 1).val, idx2_lt1 i⟩ : Fin 4096) :=
    funext fun d => Fin.ext (by match d with | ⟨0, _⟩ => rfl)
  rw [eb]
  show (∑ k : Fin 4096, x (lidx_main_v40 i k) * val_main_v39 (F := Ideal) qw qz sc gi (ridx_main_v40 i k)) + _ = _
  unfold gemm
  congr 1
  refine Finset.sum_congr rfl fun k _ => ?_
  have el : lidx_main_v40 i k = ix2 (⟨(i 0).val, idx2_lt0 i⟩ : Fin 8192) k :=
    funext fun d => Fin.ext (by match d with | ⟨0, _⟩ => rfl | ⟨1, _⟩ => rfl)
  have er : ridx_main_v40 i k = ix2 k (⟨(i 1).val, idx2_lt1 i⟩ : Fin 4096) :=
    funext fun d => Fin.ext (by match d with | ⟨0, _⟩ => rfl | ⟨1, _⟩ => rfl)
  rw [el, er, v39_at]

/-- The reference's composed term is the layer over the directly read dequantized weight. -/
theorem result_eq (x : FVec Ideal S8192x4096 .f32) (qw : IVec S512x4096 32) (qz : IVec S32x512 32)
    (sc : FVec Ideal S32x4096 .f32) (gi : IVec S4096 32) (bias : FVec Ideal S4096 .f32) :
    (addf (Host.dotGeneral dot_S8192x4096_S4096x4096_S8192x4096_1_0_0_1_n_n none x (mulf (Host.gather
      gather_S32x4096_S4096x1_S4096x4096_1_0_n_n_0_1_14096 sc (broadcastInDim S4096x1 ![0] bcast_S4096_S4096x1_0
      (select (cmpi .slt gi (broadcastInDim S4096 ![] bcast_S_S4096 (constantI S_ 32 0#32))) (addi gi
      (broadcastInDim S4096 ![] bcast_S_S4096 (constantI S_ 32 32#32))) gi))) (sitofp .f32 (subi (shapeCast _ (andi
      (Host.shrsi (broadcastInDim S512x8x4096 ![0, 1, 2] bcast_S512x1x4096_S512x8x4096_0_1_2 (broadcastInDim
      S512x1x4096 ![0, 2] bcast_S512x4096_S512x1x4096_0_2 qw)) (broadcastInDim S512x8x4096 ![0, 1, 2]
      bcast_S1x8x1_S512x8x4096_0_1_2 (broadcastInDim S1x8x1 ![1] bcast_S8_S1x8x1_1 (addi (broadcastInDim S8 ![]
      bcast_S_S8 (constantI S_ 32 0#32)) (muli (broadcastInDim S8 ![] bcast_S_S8 (constantI S_ 32 4#32)) (iotaInDim
      S8 32 0)))))) (broadcastInDim S512x8x4096 ![] bcast_S_S512x8x4096 (constantI S_ 32 15#32)))
      shapeCasts_S512x8x4096_S4096x4096) (Host.gather gather_S32x4096_S4096x1_S4096x4096_1_0_n_n_0_1_14096
      (shapeCast _ (addi (andi (Host.shrsi (broadcastInDim S32x512x8 ![0, 1, 2] bcast_S32x512x1_S32x512x8_0_1_2
      (broadcastInDim S32x512x1 ![0, 1] bcast_S32x512_S32x512x1_0_1 qz)) (broadcastInDim S32x512x8 ![0, 1, 2]
      bcast_S1x1x8_S32x512x8_0_1_2 (broadcastInDim S1x1x8 ![2] bcast_S8_S1x1x8_2 (addi (broadcastInDim S8 ![]
      bcast_S_S8 (constantI S_ 32 0#32)) (muli (broadcastInDim S8 ![] bcast_S_S8 (constantI S_ 32 4#32)) (iotaInDim
      S8 32 0)))))) (broadcastInDim S32x512x8 ![] bcast_S_S32x512x8 (constantI S_ 32 15#32))) (broadcastInDim
      S32x512x8 ![] bcast_S_S32x512x8 (constantI S_ 32 1#32))) shapeCasts_S32x512x8_S32x4096) (broadcastInDim
      S4096x1 ![0] bcast_S4096_S4096x1_0 (select (cmpi .slt gi (broadcastInDim S4096 ![] bcast_S_S4096 (constantI S_
      32 0#32))) (addi gi (broadcastInDim S4096 ![] bcast_S_S4096 (constantI S_ 32 32#32))) gi)))))))
      (broadcastInDim S8192x4096 ![0, 1] bcast_S1x4096_S8192x4096_0_1 (broadcastInDim S1x4096 ![1]
      bcast_S4096_S1x4096_1 bias))
        : FVec Ideal S8192x4096 .f32)
      = gemm x (refW qw qz sc gi) (biasRow bias) :=
  (val_main_v43_eq (F := Ideal) x qw qz sc gi bias).trans (funext fun i => v43_at x qw qz sc gi bias i)

/-- Every weakly fair execution of the reference terminates with its result the layer `x · W + bias` over the
    directly read dequantized weight of the argument arrays, the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v43)
            = Cert.QuantLinear.gemm (m ((c.tc : Thread nD τ).loc main_arg0))
                (Cert.QuantLinear.refW (m ((c.tc : Thread nD τ).loc main_arg1)) (m ((c.tc : Thread nD τ).loc main_arg2))
                  (m ((c.tc : Thread nD τ).loc main_arg3)) (m ((c.tc : Thread nD τ).loc main_arg4)))
                (Cert.QuantLinear.biasRow (m ((c.tc : Thread nD τ).loc main_arg5)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun _ h c => ⟨(h c).1.trans (result_eq _ _ _ _ _ _), (h c).2⟩)
    (Cert.ReferenceIdeal.Value.run (F := Ideal) m ρ)

end Cert.ReferenceIdeal.RefValue

end
-- ==== Proof.lean ====
/-
  An int4 quantized linear layer against its plain reference: `out = x · W + bias` with
  `W[r, o] = scale[g r, o] · (w[r, o] − zero[g r, o])`, the 4-bit weights `w` and zero points unpacked from 32-bit
  words, `g r` the group number of input row `r`.

  The kernel dequantizes the weight matrix once, in a first region over the 32 row blocks of 128 rows, selecting each
  row's scale and zero point by a 0/1 indicator of its group number multiplied against the whole 32-row tables; a
  second region multiplies, accumulating the 8 reduction blocks of 512 into a resident output block that it zeroes
  at the first block and adds the bias to at the last. The reference reads the tables at each row's group number and
  multiplies in one product. Over the extended reals the two are one function exactly when every group number is a
  table row, `0 ≤ g < 32`: there an indicator sum against a table column is the column's entry at the row (the other
  terms are `0 · _ = 0`, also at infinite entries), the integer difference of a 4-bit field and a zero point in
  `[1, 16]` does not wrap, so converting the difference is subtracting the conversions, and a sum taken block by
  block from zero is the sum. Outside that range the reference wraps and clamps the group number into the table
  while the indicator selects nothing, so the precondition carries that range; no step needs the float inputs finite.

  The frames of the two kernel programs are the generated ones; the reference's frame is its generated run with the
  result dropped; the idealization rewrote nothing. The equivalence: the idealized kernel's run with its result named
  (`KernelRun`), that result as the layer of the launch contents in the indicator-sum spelling (`KernelValue`: the two
  regions' values and the host side), the reference's result as the layer in the direct-read spelling (`RefValue`),
  and the two spellings joined under the group range read off the precondition (`PreDecode`, `Bridge`).
-/
import proofs.«426221_j26293789786976_3_alg».proof.Defs
import proofs.«426221_j26293789786976_3_alg».proof.Proof.Gen.Kernel
import proofs.«426221_j26293789786976_3_alg».proof.Proof.Gen.Kernel.Skeleton
import proofs.«426221_j26293789786976_3_alg».proof.Proof.Gen.Kernel.Launch
import proofs.«426221_j26293789786976_3_alg».proof.Proof.Gen.Kernel.Points
import proofs.«426221_j26293789786976_3_alg».proof.Proof.Gen.Kernel.Frame
import proofs.«426221_j26293789786976_3_alg».proof.Proof.Gen.KernelIdeal
import proofs.«426221_j26293789786976_3_alg».proof.Proof.Gen.KernelIdeal.Skeleton
import proofs.«426221_j26293789786976_3_alg».proof.Proof.Gen.KernelIdeal.Launch
import proofs.«426221_j26293789786976_3_alg».proof.Proof.Gen.KernelIdeal.Points
import proofs.«426221_j26293789786976_3_alg».proof.Proof.Gen.KernelIdeal.Frame
import proofs.«426221_j26293789786976_3_alg».proof.Proof.Gen.ReferenceIdeal
import proofs.«426221_j26293789786976_3_alg».proof.Proof.Gen.ReferenceIdeal.Run
import proofs.«426221_j26293789786976_3_alg».proof.Proof.Gen.Pre_finite_inputs
import proofs.«426221_j26293789786976_3_alg».proof.Proof.KernelRun
import proofs.«426221_j26293789786976_3_alg».proof.Proof.KernelValue
import proofs.«426221_j26293789786976_3_alg».proof.Proof.Bridge
import proofs.«426221_j26293789786976_3_alg».proof.Proof.PreDecode
import proofs.«426221_j26293789786976_3_alg».proof.Proof.RefValue
import Idealize.ShloMosaic.Adequacy
import Idealize.ShloMosaic.Init

set_option maxRecDepth 16384

noncomputable section

namespace Cert.Proof

open Idealize.ShloMosaic Idealize.SL.Sem Cert.QuantLinear

/-- From memories agreeing on the arguments, under the precondition, both idealized programs end with the result
    array at the layer of the arguments in the direct-read spelling: the kernel's by its value and the bridge under
    the group range the precondition states, the reference's by its value at the agreeing arguments. -/
theorem algebraic : Cert.algebraic_KernelIdeal_ReferenceIdeal := by
  intro m ρ m' ρ' hpre hagree
  refine ⟨fun c => gemm (m ((c.tc : Thread Cert.KernelIdeal.nD Cert.KernelIdeal.τ).loc Cert.KernelIdeal.main_arg0))
      (refW (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (biasRow (m ((c.tc : Thread Cert.KernelIdeal.nD Cert.KernelIdeal.τ).loc Cert.KernelIdeal.main_arg5))), ?_, ?_⟩
  · refine (θ_run Cert.KernelIdeal.defs _ _).mono (fun r h c => ⟨(h c).1.trans ?_, (h c).2⟩)
      (Cert.KernelIdeal.Gen.run_result (F := Ideal) m ρ)
    rw [Cert.KernelIdeal.KernelValue.result_value m ρ c,
      deqW_eq_refW _ _ _ _ (fun r => Cert.QuantLinear.PreDecode.gidx_range _ _ _ _ _ _ (hpre c) r)]
  · refine (θ_run Cert.ReferenceIdeal.defs _ _).mono (fun r h c => ⟨(h c).1.trans ?_, (h c).2⟩)
      (Cert.ReferenceIdeal.RefValue.run_spec m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
